-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x5 : Shape := ⟨2, ![1048576, 5]⟩
abbrev S1x17 : Shape := ⟨2, ![1, 17]⟩
abbrev S17 : Shape := ⟨1, ![17]⟩
abbrev S34x17 : Shape := ⟨2, ![34, 17]⟩
abbrev S68x17 : Shape := ⟨2, ![68, 17]⟩
abbrev S85x1 : Shape := ⟨2, ![85, 1]⟩
abbrev S1 : Shape := ⟨1, ![1]⟩
abbrev S_ : Shape := ⟨0, ![]⟩

class Facts : Prop where
  bcast_S_S1048576x5 : S_.BroadcastsInDim S1048576x5 (![] : Fin 0 → Fin S1048576x5.rank)
  reducesTo_S1048576x5_S_d0_1 : S1048576x5.ReducesTo [0, 1] S_
  h_S_ : 0 < S_.numel
  bcast_S_S1x17 : S_.BroadcastsInDim S1x17 (![] : Fin 0 → Fin S1x17.rank)
  reducesTo_S1x17_S_d0_1 : S1x17.ReducesTo [0, 1] S_
  bcast_S_S17 : S_.BroadcastsInDim S17 (![] : Fin 0 → Fin S17.rank)
  reducesTo_S17_S_d0 : S17.ReducesTo [0] S_
  bcast_S_S34x17 : S_.BroadcastsInDim S34x17 (![] : Fin 0 → Fin S34x17.rank)
  reducesTo_S34x17_S_d0_1 : S34x17.ReducesTo [0, 1] S_
  bcast_S_S68x17 : S_.BroadcastsInDim S68x17 (![] : Fin 0 → Fin S68x17.rank)
  reducesTo_S68x17_S_d0_1 : S68x17.ReducesTo [0, 1] S_
  bcast_S_S85x1 : S_.BroadcastsInDim S85x1 (![] : Fin 0 → Fin S85x1.rank)
  reducesTo_S85x1_S_d0_1 : S85x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S85x1 .f32) (main_arg8 : FVec F S1 .f32) (main_v33 : IVec S_ 1) : IVec S_ 1 :=
  let main_v34 : FVec F S85x1 .f32 := Host.absf main_arg7
  let main_cst_12 : FVec F S_ .f32 := constant S_ .f32 0x7F800000#32
  let main_v35 : FVec F S85x1 .f32 := broadcastInDim S85x1 ![] bcast_S_S85x1 main_cst_12
  let main_v36 : IVec S85x1 1 := cmpf .olt main_v34 main_v35
  let main_c_13 : IVec S_ 1 := constantI S_ 1 1#1
  let main_v37 : IVec S_ 1 := (fun x v => Host.reduce IntOp.andi x v reducesTo_S85x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S17 .f32) (main_arg5 : FVec F S68x17 .f32) (main_arg6 : FVec F S17 .f32) (main_arg7 : FVec F S85x1 .f32) (main_arg8 : FVec F S1 .f32) (main_v13 : IVec S_ 1) (main_v16 : IVec S34x17 1) : IVec S_ 1 :=
  let main_c_5 : IVec S_ 1 := constantI S_ 1 1#1
  let main_v17 : IVec S_ 1 := (fun x v => Host.reduce IntOp.andi x v reducesTo_S34x17_S_d0_1 h_S_) main_v16 main_c_5
  let main_v18 : IVec S_ 1 := andi main_v13 main_v17
  let main_v19 : FVec F S17 .f32 := Host.absf main_arg4
  let main_cst_6 : FVec F S_ .f32 := constant S_ .f32 0x7F800000#32
  let main_v20 : FVec F S17 .f32 := broadcastInDim S17 ![] bcast_S_S17 main_cst_6
  let main_v21 : IVec S17 1 := cmpf .olt main_v19 main_v20
  let main_c_7 : IVec S_ 1 := constantI S_ 1 1#1
  let main_v22 : IVec S_ 1 := (fun x v => Host.reduce IntOp.andi x v reducesTo_S17_S_d0 h_S_) main_v21 main_c_7
  let main_v23 : IVec S_ 1 := andi main_v18 main_v22
  let main_v24 : FVec F S68x17 .f32 := Host.absf main_arg5
  let main_cst_8 : FVec F S_ .f32 := constant S_ .f32 0x7F800000#32
  let main_v25 : FVec F S68x17 .f32 := broadcastInDim S68x17 ![] bcast_S_S68x17 main_cst_8
  let main_v26 : IVec S68x17 1 := cmpf .olt main_v24 main_v25
  let main_c_9 : IVec S_ 1 := constantI S_ 1 1#1
  let main_v27 : IVec S_ 1 := (fun x v => Host.reduce IntOp.andi x v reducesTo_S68x17_S_d0_1 h_S_) main_v26 main_c_9
  let main_v28 : IVec S_ 1 := andi main_v23 main_v27
  let main_v29 : FVec F S17 .f32 := Host.absf main_arg6
  let main_cst_10 : FVec F S_ .f32 := constant S_ .f32 0x7F800000#32
  let main_v30 : FVec F S17 .f32 := broadcastInDim S17 ![] bcast_S_S17 main_cst_10
  let main_v31 : IVec S17 1 := cmpf .olt main_v29 main_v30
  let main_c_11 : IVec S_ 1 := constantI S_ 1 1#1
  let main_v32 : IVec S_ 1 := (fun x v => Host.reduce IntOp.andi x v reducesTo_S17_S_d0 h_S_) main_v31 main_c_11
  let main_v33 : IVec S_ 1 := andi main_v28 main_v32
  fn_part2 (F := F) main_arg7 main_arg8 main_v33

def fn {F : FTy → Type} [FloatOps F] (main_arg0 : FVec F S1048576x5 .f32) (main_arg1 : FVec F S1x17 .f32) (main_arg2 : FVec F S17 .f32) (main_arg3 : FVec F S34x17 .f32) (main_arg4 : FVec F S17 .f32) (main_arg5 : FVec F S68x17 .f32) (main_arg6 : FVec F S17 .f32) (main_arg7 : FVec F S85x1 .f32) (main_arg8 : FVec F S1 .f32) : IVec S_ 1 :=
  let main_v0 : FVec F S1048576x5 .f32 := Host.absf main_arg0
  let main_cst : FVec F S_ .f32 := constant S_ .f32 0x7F800000#32
  let main_v1 : FVec F S1048576x5 .f32 := broadcastInDim S1048576x5 ![] bcast_S_S1048576x5 main_cst
  let main_v2 : IVec S1048576x5 1 := cmpf .olt main_v0 main_v1
  let main_c : IVec S_ 1 := constantI S_ 1 1#1
  let main_v3 : IVec S_ 1 := (fun x v => Host.reduce IntOp.andi x v reducesTo_S1048576x5_S_d0_1 h_S_) main_v2 main_c
  let main_v4 : FVec F S1x17 .f32 := Host.absf main_arg1
  let main_cst_0 : FVec F S_ .f32 := constant S_ .f32 0x7F800000#32
  let main_v5 : FVec F S1x17 .f32 := broadcastInDim S1x17 ![] bcast_S_S1x17 main_cst_0
  let main_v6 : IVec S1x17 1 := cmpf .olt main_v4 main_v5
  let main_c_1 : IVec S_ 1 := constantI S_ 1 1#1
  let main_v7 : IVec S_ 1 := (fun x v => Host.reduce IntOp.andi x v reducesTo_S1x17_S_d0_1 h_S_) main_v6 main_c_1
  let main_v8 : IVec S_ 1 := andi main_v3 main_v7
  let main_v9 : FVec F S17 .f32 := Host.absf main_arg2
  let main_cst_2 : FVec F S_ .f32 := constant S_ .f32 0x7F800000#32
  let main_v10 : FVec F S17 .f32 := broadcastInDim S17 ![] bcast_S_S17 main_cst_2
  let main_v11 : IVec S17 1 := cmpf .olt main_v9 main_v10
  let main_c_3 : IVec S_ 1 := constantI S_ 1 1#1
  let main_v12 : IVec S_ 1 := (fun x v => Host.reduce IntOp.andi x v reducesTo_S17_S_d0 h_S_) main_v11 main_c_3
  let main_v13 : IVec S_ 1 := andi main_v8 main_v12
  let main_v14 : FVec F S34x17 .f32 := Host.absf main_arg3
  let main_cst_4 : FVec F S_ .f32 := constant S_ .f32 0x7F800000#32
  let main_v15 : FVec F S34x17 .f32 := broadcastInDim S34x17 ![] bcast_S_S34x17 main_cst_4
  let main_v16 : IVec S34x17 1 := cmpf .olt main_v14 main_v15
  fn_part1 (F := F) main_arg4 main_arg5 main_arg6 main_arg7 main_arg8 main_v13 main_v16
-- ==== Kernel.lean ====
abbrev S1048576x5 : Shape := ⟨2, ![1048576, 5]⟩
abbrev S1x17 : Shape := ⟨2, ![1, 17]⟩
abbrev S17 : Shape := ⟨1, ![17]⟩
abbrev S34x17 : Shape := ⟨2, ![34, 17]⟩
abbrev S68x17 : Shape := ⟨2, ![68, 17]⟩
abbrev S85x1 : Shape := ⟨2, ![85, 1]⟩
abbrev S1 : Shape := ⟨1, ![1]⟩
abbrev S17x17 : Shape := ⟨2, ![17, 17]⟩
abbrev S17x1 : Shape := ⟨2, ![17, 1]⟩
abbrev S1048576x1 : Shape := ⟨2, ![1048576, 1]⟩
abbrev S8192x5 : Shape := ⟨2, ![8192, 5]⟩
abbrev S8192x1 : Shape := ⟨2, ![8192, 1]⟩
abbrev S8192x17 : Shape := ⟨2, ![8192, 17]⟩
abbrev S1x1 : Shape := ⟨2, ![1, 1]⟩

abbrev nBuf : Space → Nat
  | .hbm => 21
  | .vmem => 20
  | .smem => 0
  | _ => 0

abbrev bufTy : (tb : Table) → Fin (tcTables nBuf tb) → BufTy
  | .hbm, ⟨0, _⟩ => ⟨S1048576x5, .f32⟩
  | .hbm, ⟨1, _⟩ => ⟨S1x17, .f32⟩
  | .hbm, ⟨2, _⟩ => ⟨S17, .f32⟩
  | .hbm, ⟨3, _⟩ => ⟨S34x17, .f32⟩
  | .hbm, ⟨4, _⟩ => ⟨S17, .f32⟩
  | .hbm, ⟨5, _⟩ => ⟨S68x17, .f32⟩
  | .hbm, ⟨6, _⟩ => ⟨S17, .f32⟩
  | .hbm, ⟨7, _⟩ => ⟨S85x1, .f32⟩
  | .hbm, ⟨8, _⟩ => ⟨S1, .f32⟩
  | .hbm, ⟨9, _⟩ => ⟨S17x17, .f32⟩
  | .hbm, ⟨10, _⟩ => ⟨S17x17, .f32⟩
  | .hbm, ⟨11, _⟩ => ⟨S17x17, .f32⟩
  | .hbm, ⟨12, _⟩ => ⟨S17x17, .f32⟩
  | .hbm, ⟨13, _⟩ => ⟨S17x17, .f32⟩
  | .hbm, ⟨14, _⟩ => ⟨S17x17, .f32⟩
  | .hbm, ⟨15, _⟩ => ⟨S17x1, .f32⟩
  | .hbm, ⟨16, _⟩ => ⟨S17x1, .f32⟩
  | .hbm, ⟨17, _⟩ => ⟨S17x1, .f32⟩
  | .hbm, ⟨18, _⟩ => ⟨S17x1, .f32⟩
  | .hbm, ⟨19, _⟩ => ⟨S17x1, .f32⟩
  | .hbm, ⟨20, _⟩ => ⟨S1048576x1, .f32⟩
  | .local _ .vmem, ⟨0, _⟩ => ⟨S8192x5, .f32⟩
  | .local _ .vmem, ⟨1, _⟩ => ⟨S8192x5, .f32⟩
  | .local _ .vmem, ⟨2, _⟩ => ⟨S1x17, .f32⟩
  | .local _ .vmem, ⟨3, _⟩ => ⟨S17, .f32⟩
  | .local _ .vmem, ⟨4, _⟩ => ⟨S17x17, .f32⟩
  | .local _ .vmem, ⟨5, _⟩ => ⟨S17x17, .f32⟩
  | .local _ .vmem, ⟨6, _⟩ => ⟨S17, .f32⟩
  | .local _ .vmem, ⟨7, _⟩ => ⟨S17x17, .f32⟩
  | .local _ .vmem, ⟨8, _⟩ => ⟨S17x17, .f32⟩
  | .local _ .vmem, ⟨9, _⟩ => ⟨S17x17, .f32⟩
  | .local _ .vmem, ⟨10, _⟩ => ⟨S17x17, .f32⟩
  | .local _ .vmem, ⟨11, _⟩ => ⟨S17, .f32⟩
  | .local _ .vmem, ⟨12, _⟩ => ⟨S17x1, .f32⟩
  | .local _ .vmem, ⟨13, _⟩ => ⟨S17x1, .f32⟩
  | .local _ .vmem, ⟨14, _⟩ => ⟨S17x1, .f32⟩
  | .local _ .vmem, ⟨15, _⟩ => ⟨S17x1, .f32⟩
  | .local _ .vmem, ⟨16, _⟩ => ⟨S17x1, .f32⟩
  | .local _ .vmem, ⟨17, _⟩ => ⟨S1, .f32⟩
  | .local _ .vmem, ⟨18, _⟩ => ⟨S8192x1, .f32⟩
  | .local _ .vmem, ⟨19, _⟩ => ⟨S8192x1, .f32⟩
  | _, _ => ⟨S1048576x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x17 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S17 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S17x17 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S17x17 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S17 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S17x17 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S17x17 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S17x17 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S17x17 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S17 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S17x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S17x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S17x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S17x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S17x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S8192x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S34x17_S17x17_0_0 : S34x17.Slices ![0, 0] S17x17
  slices_S34x17_S17x17_17_0 : S34x17.Slices ![17, 0] S17x17
  slices_S68x17_S17x17_0_0 : S68x17.Slices ![0, 0] S17x17
  slices_S68x17_S17x17_17_0 : S68x17.Slices ![17, 0] S17x17
  slices_S68x17_S17x17_34_0 : S68x17.Slices ![34, 0] S17x17
  slices_S68x17_S17x17_51_0 : S68x17.Slices ![51, 0] S17x17
  slices_S85x1_S17x1_0_0 : S85x1.Slices ![0, 0] S17x1
  slices_S85x1_S17x1_17_0 : S85x1.Slices ![17, 0] S17x1
  slices_S85x1_S17x1_34_0 : S85x1.Slices ![34, 0] S17x1
  slices_S85x1_S17x1_51_0 : S85x1.Slices ![51, 0] S17x1
  slices_S85x1_S17x1_68_0 : S85x1.Slices ![68, 0] S17x1
  inb_S1x17_S1x17_0_0 : ∀ a, (![0, 0] : Fin 2 → Nat) a + S1x17.size a ≤ S1x17.size a
  h_S1x17 : 0 < S1x17.numel
  shapeCasts_S1x17_S17 : S1x17.ShapeCasts S17
  inb_S17_S17_0 : ∀ a, (![0] : Fin 1 → Nat) a + S17.size a ≤ S17.size a
  h_S17 : 0 < S17.numel
  inb_S8192x5_S8192x1_0_0 : ∀ a, (![0, 0] : Fin 2 → Nat) a + S8192x1.size a ≤ S8192x5.size a
  h_S8192x1 : 0 < S8192x1.numel
  shapeCasts_S17_S1x17 : S17.ShapeCasts S1x17
  broadcasts_S8192x1_S8192x17 : S8192x1.Broadcasts S8192x17
  broadcasts_S1x17_S8192x17 : S1x17.Broadcasts S8192x17
  inb_S8192x5_S8192x1_0_1 : ∀ a, (![0, 1] : Fin 2 → Nat) a + S8192x1.size a ≤ S8192x5.size a
  inb_S8192x5_S8192x1_0_2 : ∀ a, (![0, 2] : Fin 2 → Nat) a + S8192x1.size a ≤ S8192x5.size a
  inb_S8192x5_S8192x1_0_3 : ∀ a, (![0, 3] : Fin 2 → Nat) a + S8192x1.size a ≤ S8192x5.size a
  inb_S8192x5_S8192x1_0_4 : ∀ a, (![0, 4] : Fin 2 → Nat) a + S8192x1.size a ≤ S8192x5.size a
  inb_S17x17_S17x17_0_0 : ∀ a, (![0, 0] : Fin 2 → Nat) a + S17x17.size a ≤ S17x17.size a
  h_S17x17 : 0 < S17x17.numel
  shapeCasts_S17x17_S17x17 : S17x17.ShapeCasts S17x17
  bitsLt_bf16_f32 : FTy.bits .bf16 < FTy.bits .f32
  inb_S17x1_S17x1_0_0 : ∀ a, (![0, 0] : Fin 2 → Nat) a + S17x1.size a ≤ S17x1.size a
  h_S17x1 : 0 < S17x1.numel
  shapeCasts_S17x1_S17x1 : S17x1.ShapeCasts S17x1
  inb_S1_S1_0 : ∀ a, (![0] : Fin 1 → Nat) a + S1.size a ≤ S1.size a
  h_S1 : 0 < S1.numel
  shapeCasts_S1_S1x1 : S1.ShapeCasts S1x1
  broadcasts_S1x1_S8192x1 : S1x1.Broadcasts S8192x1
  inb_S8192x1_S8192x1_0_0 : ∀ a, (![0, 0] : Fin 2 → Nat) a + S8192x1.size a ≤ S8192x1.size a
  dot_S8192x17_S17x17_S8192x17_1_0_0_1_n_n_wf : DotDims.WF S8192x17 S17x17 S8192x17 [1] [0] [0] [1] [] []
  dot_S8192x17_S17x1_S8192x1_1_0_0_1_n_n_wf : DotDims.WF S8192x17 S17x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x5.size a ≤ S1048576x5.size a
  hwx0_0 : ∀ i : grid0.Coords, EltTy.bits .f32 = 32 ∨ (Rect.block (s := S1048576x5) S8192x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x17.size a ≤ S1x17.size a
  hwx0_1 : ∀ i : grid0.Coords, EltTy.bits .f32 = 32 ∨ (Rect.block (s := S1x17) S1x17.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S17.size a ≤ S17.size a
  hwx0_2 : ∀ i : grid0.Coords, EltTy.bits .f32 = 32 ∨ (Rect.block (s := S17) S17.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S17x17.size a ≤ S17x17.size a
  hwx0_3 : ∀ i : grid0.Coords, EltTy.bits .f32 = 32 ∨ (Rect.block (s := S17x17) S17x17.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S17x17.size a ≤ S17x17.size a
  hwx0_4 : ∀ i : grid0.Coords, EltTy.bits .f32 = 32 ∨ (Rect.block (s := S17x17) S17x17.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S17.size a ≤ S17.size a
  hwx0_5 : ∀ i : grid0.Coords, EltTy.bits .f32 = 32 ∨ (Rect.block (s := S17) S17.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S17x17.size a ≤ S17x17.size a
  hwx0_6 : ∀ i : grid0.Coords, EltTy.bits .f32 = 32 ∨ (Rect.block (s := S17x17) S17x17.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S17x17.size a ≤ S17x17.size a
  hwx0_7 : ∀ i : grid0.Coords, EltTy.bits .f32 = 32 ∨ (Rect.block (s := S17x17) S17x17.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S17x17.size a ≤ S17x17.size a
  hwx0_8 : ∀ i : grid0.Coords, EltTy.bits .f32 = 32 ∨ (Rect.block (s := S17x17) S17x17.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S17x17.size a ≤ S17x17.size a
  hwx0_9 : ∀ i : grid0.Coords, EltTy.bits .f32 = 32 ∨ (Rect.block (s := S17x17) S17x17.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S17.size a ≤ S17.size a
  hwx0_10 : ∀ i : grid0.Coords, EltTy.bits .f32 = 32 ∨ (Rect.block (s := S17) S17.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S17x1.size a ≤ S17x1.size a
  hwx0_11 : ∀ i : grid0.Coords, EltTy.bits .f32 = 32 ∨ (Rect.block (s := S17x1) S17x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S17x1.size a ≤ S17x1.size a
  hwx0_12 : ∀ i : grid0.Coords, EltTy.bits .f32 = 32 ∨ (Rect.block (s := S17x1) S17x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S17x1.size a ≤ S17x1.size a
  hwx0_13 : ∀ i : grid0.Coords, EltTy.bits .f32 = 32 ∨ (Rect.block (s := S17x1) S17x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S17x1.size a ≤ S17x1.size a
  hwx0_14 : ∀ i : grid0.Coords, EltTy.bits .f32 = 32 ∨ (Rect.block (s := S17x1) S17x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S17x1.size a ≤ S17x1.size a
  hwx0_15 : ∀ i : grid0.Coords, EltTy.bits .f32 = 32 ∨ (Rect.block (s := S17x1) S17x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1.size a ≤ S1.size a
  hwx0_16 : ∀ i : grid0.Coords, EltTy.bits .f32 = 32 ∨ (Rect.block (s := S1) S1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S8192x1.size a ≤ S1048576x1.size a
  hwx0_17 : ∀ i : grid0.Coords, EltTy.bits .f32 = 32 ∨ (Rect.block (s := S1048576x1) S8192x1.size (cc0_transform_17 i) (hinb0_17 i)).WholeWords (EltTy.packing .f32)

variable [Facts₀]

def dot_S8192x17_S17x17_S8192x17_1_0_0_1_n_n : DotDims S8192x17 S17x17 S8192x17 where
  lhsContracting := [1]
  rhsContracting := [0]
  lhsNonContracting := [0]
  rhsNonContracting := [1]
  lhsBatch := []
  rhsBatch := []
  wf := dot_S8192x17_S17x17_S8192x17_1_0_0_1_n_n_wf
def dot_S8192x17_S17x1_S8192x1_1_0_0_1_n_n : DotDims S8192x17 S17x1 S8192x1 where
  lhsContracting := [1]
  rhsContracting := [0]
  lhsNonContracting := [0]
  rhsNonContracting := [1]
  lhsBatch := []
  rhsBatch := []
  wf := dot_S8192x17_S17x1_S8192x1_1_0_0_1_n_n_wf

abbrev win0_0 : Pipeline.Window sig grid0 :=
  Pipeline.Window.ofSpec (Memref.whole main_arg0) S8192x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x17.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S17.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S17x17.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S17x17.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S17.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S17x17.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S17x17.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S17x17.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S17x17.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg6) S17.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S17x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S17x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S17x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S17x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v10) S17x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg8) S1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v11) S8192x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S1048576x5 : Shape := ⟨2, ![1048576, 5]⟩
abbrev S1x17 : Shape := ⟨2, ![1, 17]⟩
abbrev S17 : Shape := ⟨1, ![17]⟩
abbrev S34x17 : Shape := ⟨2, ![34, 17]⟩
abbrev S68x17 : Shape := ⟨2, ![68, 17]⟩
abbrev S85x1 : Shape := ⟨2, ![85, 1]⟩
abbrev S1 : Shape := ⟨1, ![1]⟩
abbrev S1048576x5x1 : Shape := ⟨3, ![1048576, 5, 1]⟩
abbrev S1x1x17 : Shape := ⟨3, ![1, 1, 17]⟩
abbrev S1048576x5x17 : Shape := ⟨3, ![1048576, 5, 17]⟩
abbrev S1048576x1x17 : Shape := ⟨3, ![1048576, 1, 17]⟩
abbrev S1048576x17 : Shape := ⟨2, ![1048576, 17]⟩
abbrev S17x17 : Shape := ⟨2, ![17, 17]⟩
abbrev S_ : Shape := ⟨0, ![]⟩
abbrev S17x1 : Shape := ⟨2, ![17, 1]⟩
abbrev S1048576x1 : Shape := ⟨2, ![1048576, 1]⟩
abbrev S1x1 : Shape := ⟨2, ![1, 1]⟩

abbrev nBuf : Space → Nat
  | .hbm => 195
  | .vmem => 0
  | .smem => 0
  | _ => 0

abbrev hbmTy0_0 (i : Nat) : BufTy := match i % 128 with
  | 0 => ⟨S1048576x5, .f32⟩
  | 1 => ⟨S1x17, .f32⟩
  | 2 => ⟨S17, .f32⟩
  | 3 => ⟨S34x17, .f32⟩
  | 4 => ⟨S17, .f32⟩
  | 5 => ⟨S68x17, .f32⟩
  | 6 => ⟨S17, .f32⟩
  | 7 => ⟨S85x1, .f32⟩
  | 8 => ⟨S1, .f32⟩
  | 9 => ⟨S1048576x5x1, .f32⟩
  | 10 => ⟨S17, .f32⟩
  | 11 => ⟨S1x1x17, .f32⟩
  | 12 => ⟨S1048576x5x17, .f32⟩
  | 13 => ⟨S1048576x5x17, .f32⟩
  | 14 => ⟨S1048576x5x17, .f32⟩
  | 15 => ⟨S1x1x17, .f32⟩
  | 16 => ⟨S1048576x5x17, .f32⟩
  | 17 => ⟨S1048576x5x17, .f32⟩
  | 18 => ⟨S1048576x5x17, .f32⟩
  | 19 => ⟨S1048576x1x17, .f32⟩
  | 20 => ⟨S1048576x17, .f32⟩
  | 21 => ⟨S1048576x1x17, .f32⟩
  | 22 => ⟨S1048576x17, .f32⟩
  | 23 => ⟨S1048576x1x17, .f32⟩
  | 24 => ⟨S1048576x17, .f32⟩
  | 25 => ⟨S1048576x1x17, .f32⟩
  | 26 => ⟨S1048576x17, .f32⟩
  | 27 => ⟨S1048576x1x17, .f32⟩
  | 28 => ⟨S1048576x17, .f32⟩
  | 29 => ⟨S17x17, .f32⟩
  | 30 => ⟨S1048576x17, .f32⟩
  | 31 => ⟨S17x17, .f32⟩
  | 32 => ⟨S1048576x17, .f32⟩
  | 33 => ⟨S1048576x17, .f32⟩
  | 34 => ⟨S1x17, .f32⟩
  | 35 => ⟨S1048576x17, .f32⟩
  | 36 => ⟨S1048576x17, .f32⟩
  | 37 => ⟨S1048576x17, .f32⟩
  | 38 => ⟨S17x17, .f32⟩
  | 39 => ⟨S1048576x17, .f32⟩
  | 40 => ⟨S17x17, .f32⟩
  | 41 => ⟨S1048576x17, .f32⟩
  | 42 => ⟨S1048576x17, .f32⟩
  | 43 => ⟨S1x17, .f32⟩
  | 44 => ⟨S1048576x17, .f32⟩
  | 45 => ⟨S1048576x17, .f32⟩
  | 46 => ⟨S1048576x17, .f32⟩
  | 47 => ⟨S17x17, .f32⟩
  | 48 => ⟨S1048576x17, .f32⟩
  | 49 => ⟨S17x17, .f32⟩
  | 50 => ⟨S1048576x17, .f32⟩
  | 51 => ⟨S1048576x17, .f32⟩
  | 52 => ⟨S1x17, .f32⟩
  | 53 => ⟨S1048576x17, .f32⟩
  | 54 => ⟨S1048576x17, .f32⟩
  | 55 => ⟨S1048576x17, .f32⟩
  | 56 => ⟨S17x17, .f32⟩
  | 57 => ⟨S1048576x17, .f32⟩
  | 58 => ⟨S17x17, .f32⟩
  | 59 => ⟨S1048576x17, .f32⟩
  | 60 => ⟨S1048576x17, .f32⟩
  | 61 => ⟨S1x17, .f32⟩
  | 62 => ⟨S1048576x17, .f32⟩
  | 63 => ⟨S1048576x17, .f32⟩
  | 64 => ⟨S1048576x17, .f32⟩
  | 65 => ⟨S17x17, .f32⟩
  | 66 => ⟨S1048576x17, .f32⟩
  | 67 => ⟨S17x17, .f32⟩
  | 68 => ⟨S1048576x17, .f32⟩
  | 69 => ⟨S1048576x17, .f32⟩
  | 70 => ⟨S1x17, .f32⟩
  | 71 => ⟨S1048576x17, .f32⟩
  | 72 => ⟨S1048576x17, .f32⟩
  | 73 => ⟨S1048576x17, .f32⟩
  | 74 => ⟨S17x17, .f32⟩
  | 75 => ⟨S1048576x17, .f32⟩
  | 76 => ⟨S17x17, .f32⟩
  | 77 => ⟨S1048576x17, .f32⟩
  | 78 => ⟨S1048576x17, .f32⟩
  | 79 => ⟨S1x17, .f32⟩
  | 80 => ⟨S1048576x17, .f32⟩
  | 81 => ⟨S1048576x17, .f32⟩
  | 82 => ⟨S1048576x17, .f32⟩
  | 83 => ⟨S17x17, .f32⟩
  | 84 => ⟨S1048576x17, .f32⟩
  | 85 => ⟨S17x17, .f32⟩
  | 86 => ⟨S1048576x17, .f32⟩
  | 87 => ⟨S1048576x17, .f32⟩
  | 88 => ⟨S1x17, .f32⟩
  | 89 => ⟨S1048576x17, .f32⟩
  | 90 => ⟨S1048576x17, .f32⟩
  | 91 => ⟨S1048576x17, .f32⟩
  | 92 => ⟨S17x17, .f32⟩
  | 93 => ⟨S1048576x17, .f32⟩
  | 94 => ⟨S17x17, .f32⟩
  | 95 => ⟨S1048576x17, .f32⟩
  | 96 => ⟨S1048576x17, .f32⟩
  | 97 => ⟨S1x17, .f32⟩
  | 98 => ⟨S1048576x17, .f32⟩
  | 99 => ⟨S1048576x17, .f32⟩
  | 100 => ⟨S1048576x17, .f32⟩
  | 101 => ⟨S_, .f32⟩
  | 102 => ⟨S1048576x17, .f32⟩
  | 103 => ⟨S17x17, .f32⟩
  | 104 => ⟨S1048576x17, .f32⟩
  | 105 => ⟨S17x17, .f32⟩
  | 106 => ⟨S1048576x17, .f32⟩
  | 107 => ⟨S1048576x17, .f32⟩
  | 108 => ⟨S17x17, .f32⟩
  | 109 => ⟨S1048576x17, .f32⟩
  | 110 => ⟨S1048576x17, .f32⟩
  | 111 => ⟨S17x17, .f32⟩
  | 112 => ⟨S1048576x17, .f32⟩
  | 113 => ⟨S1048576x17, .f32⟩
  | 114 => ⟨S1x17, .f32⟩
  | 115 => ⟨S1048576x17, .f32⟩
  | 116 => ⟨S1048576x17, .f32⟩
  | 117 => ⟨S1048576x17, .f32⟩
  | 118 => ⟨S17x17, .f32⟩
  | 119 => ⟨S1048576x17, .f32⟩
  | 120 => ⟨S17x17, .f32⟩
  | 121 => ⟨S1048576x17, .f32⟩
  | 122 => ⟨S1048576x17, .f32⟩
  | 123 => ⟨S17x17, .f32⟩
  | 124 => ⟨S1048576x17, .f32⟩
  | 125 => ⟨S1048576x17, .f32⟩
  | 126 => ⟨S17x17, .f32⟩
  | 127 => ⟨S1048576x17, .f32⟩
  | _ => ⟨S1048576x5, .f32⟩

abbrev hbmTy0_1 (i : Nat) : BufTy := match i % 128 with
  | 0 => ⟨S1048576x17, .f32⟩
  | 1 => ⟨S1x17, .f32⟩
  | 2 => ⟨S1048576x17, .f32⟩
  | 3 => ⟨S1048576x17, .f32⟩
  | 4 => ⟨S1048576x17, .f32⟩
  | 5 => ⟨S17x17, .f32⟩
  | 6 => ⟨S1048576x17, .f32⟩
  | 7 => ⟨S17x17, .f32⟩
  | 8 => ⟨S1048576x17, .f32⟩
  | 9 => ⟨S1048576x17, .f32⟩
  | 10 => ⟨S17x17, .f32⟩
  | 11 => ⟨S1048576x17, .f32⟩
  | 12 => ⟨S1048576x17, .f32⟩
  | 13 => ⟨S17x17, .f32⟩
  | 14 => ⟨S1048576x17, .f32⟩
  | 15 => ⟨S1048576x17, .f32⟩
  | 16 => ⟨S1x17, .f32⟩
  | 17 => ⟨S1048576x17, .f32⟩
  | 18 => ⟨S1048576x17, .f32⟩
  | 19 => ⟨S1048576x17, .f32⟩
  | 20 => ⟨S17x17, .f32⟩
  | 21 => ⟨S1048576x17, .f32⟩
  | 22 => ⟨S17x17, .f32⟩
  | 23 => ⟨S1048576x17, .f32⟩
  | 24 => ⟨S1048576x17, .f32⟩
  | 25 => ⟨S17x17, .f32⟩
  | 26 => ⟨S1048576x17, .f32⟩
  | 27 => ⟨S1048576x17, .f32⟩
  | 28 => ⟨S17x17, .f32⟩
  | 29 => ⟨S1048576x17, .f32⟩
  | 30 => ⟨S1048576x17, .f32⟩
  | 31 => ⟨S1x17, .f32⟩
  | 32 => ⟨S1048576x17, .f32⟩
  | 33 => ⟨S1048576x17, .f32⟩
  | 34 => ⟨S1048576x17, .f32⟩
  | 35 => ⟨S17x17, .f32⟩
  | 36 => ⟨S1048576x17, .f32⟩
  | 37 => ⟨S17x17, .f32⟩
  | 38 => ⟨S1048576x17, .f32⟩
  | 39 => ⟨S1048576x17, .f32⟩
  | 40 => ⟨S17x17, .f32⟩
  | 41 => ⟨S1048576x17, .f32⟩
  | 42 => ⟨S1048576x17, .f32⟩
  | 43 => ⟨S17x17, .f32⟩
  | 44 => ⟨S1048576x17, .f32⟩
  | 45 => ⟨S1048576x17, .f32⟩
  | 46 => ⟨S1x17, .f32⟩
  | 47 => ⟨S1048576x17, .f32⟩
  | 48 => ⟨S1048576x17, .f32⟩
  | 49 => ⟨S1048576x17, .f32⟩
  | 50 => ⟨S17x1, .f32⟩
  | 51 => ⟨S1048576x1, .f32⟩
  | 52 => ⟨S17x1, .f32⟩
  | 53 => ⟨S1048576x1, .f32⟩
  | 54 => ⟨S1048576x1, .f32⟩
  | 55 => ⟨S17x1, .f32⟩
  | 56 => ⟨S1048576x1, .f32⟩
  | 57 => ⟨S1048576x1, .f32⟩
  | 58 => ⟨S17x1, .f32⟩
  | 59 => ⟨S1048576x1, .f32⟩
  | 60 => ⟨S1048576x1, .f32⟩
  | 61 => ⟨S17x1, .f32⟩
  | 62 => ⟨S1048576x1, .f32⟩
  | 63 => ⟨S1048576x1, .f32⟩
  | 64 => ⟨S1x1, .f32⟩
  | 65 => ⟨S1048576x1, .f32⟩
  | 66 => ⟨S1048576x1, .f32⟩
  | _ => ⟨S1048576x5, .f32⟩

abbrev hbmTy (i : Nat) : BufTy := match i / 128 with
  | 0 => hbmTy0_0 i
  | 1 => hbmTy0_1 i
  | _ => ⟨S1048576x5, .f32⟩

abbrev bufTy : (tb : Table) → Fin (tcTables nBuf tb) → BufTy
  | .hbm, ⟨i, _⟩ => hbmTy i
  | _, _ => ⟨S1048576x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_cst : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩

abbrev nD : Nat := 1
abbrev τ : Topo := Topo.v7x

variable {F : FTy → Type} [FloatOps F]

class Facts₀ : Prop where
  bcast_S1048576x5_S1048576x5x1_0_1 : S1048576x5.BroadcastsInDim S1048576x5x1 (![0, 1] : Fin 2 → Fin S1048576x5x1.rank)
  shapeCasts_S1x17_S17 : S1x17.ShapeCasts S17
  bcast_S17_S1x1x17_2 : S17.BroadcastsInDim S1x1x17 (![2] : Fin 1 → Fin S1x1x17.rank)
  bcast_S1048576x5x1_S1048576x5x17_0_1_2 : S1048576x5x1.BroadcastsInDim S1048576x5x17 (![0, 1, 2] : Fin 3 → Fin S1048576x5x17.rank)
  bcast_S1x1x17_S1048576x5x17_0_1_2 : S1x1x17.BroadcastsInDim S1048576x5x17 (![0, 1, 2] : Fin 3 → Fin S1048576x5x17.rank)
  slices_S1048576x5x17_S1048576x1x17_0_0_0 : S1048576x5x17.Slices ![0, 0, 0] S1048576x1x17
  shapeCasts_S1048576x1x17_S1048576x17 : S1048576x1x17.ShapeCasts S1048576x17
  slices_S1048576x5x17_S1048576x1x17_0_1_0 : S1048576x5x17.Slices ![0, 1, 0] S1048576x1x17
  slices_S1048576x5x17_S1048576x1x17_0_2_0 : S1048576x5x17.Slices ![0, 2, 0] S1048576x1x17
  slices_S1048576x5x17_S1048576x1x17_0_3_0 : S1048576x5x17.Slices ![0, 3, 0] S1048576x1x17
  slices_S1048576x5x17_S1048576x1x17_0_4_0 : S1048576x5x17.Slices ![0, 4, 0] S1048576x1x17
  slices_S34x17_S17x17_0_0 : S34x17.Slices ![0, 0] S17x17
  slices_S34x17_S17x17_17_0 : S34x17.Slices ![17, 0] S17x17
  bcast_S17_S1x17_1 : S17.BroadcastsInDim S1x17 (![1] : Fin 1 → Fin S1x17.rank)
  bcast_S1x17_S1048576x17_0_1 : S1x17.BroadcastsInDim S1048576x17 (![0, 1] : Fin 2 → Fin S1048576x17.rank)
  bcast_S_S1048576x17 : S_.BroadcastsInDim S1048576x17 (![] : Fin 0 → Fin S1048576x17.rank)
  slices_S68x17_S17x17_0_0 : S68x17.Slices ![0, 0] S17x17
  slices_S68x17_S17x17_17_0 : S68x17.Slices ![17, 0] S17x17
  slices_S68x17_S17x17_34_0 : S68x17.Slices ![34, 0] S17x17
  slices_S68x17_S17x17_51_0 : S68x17.Slices ![51, 0] S17x17
  slices_S85x1_S17x1_0_0 : S85x1.Slices ![0, 0] S17x1
  slices_S85x1_S17x1_17_0 : S85x1.Slices ![17, 0] S17x1
  slices_S85x1_S17x1_34_0 : S85x1.Slices ![34, 0] S17x1
  slices_S85x1_S17x1_51_0 : S85x1.Slices ![51, 0] S17x1
  slices_S85x1_S17x1_68_0 : S85x1.Slices ![68, 0] S17x1
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  dot_S1048576x17_S17x17_S1048576x17_1_0_0_1_n_n_wf : DotDims.WF S1048576x17 S17x17 S1048576x17 [1] [0] [0] [1] [] []
  dot_S1048576x17_S17x1_S1048576x1_1_0_0_1_n_n_wf : DotDims.WF S1048576x17 S17x1 S1048576x1 [1] [0] [0] [1] [] []

variable [Facts₀]

def dot_S1048576x17_S17x17_S1048576x17_1_0_0_1_n_n : DotDims S1048576x17 S17x17 S1048576x17 where
  lhsContracting := [1]
  rhsContracting := [0]
  lhsNonContracting := [0]
  rhsNonContracting := [1]
  lhsBatch := []
  rhsBatch := []
  wf := dot_S1048576x17_S17x17_S1048576x17_1_0_0_1_n_n_wf
def dot_S1048576x17_S17x1_S1048576x1_1_0_0_1_n_n : DotDims S1048576x17 S17x1 S1048576x1 where
  lhsContracting := [1]
  rhsContracting := [0]
  lhsNonContracting := [0]
  rhsNonContracting := [1]
  lhsBatch := []
  rhsBatch := []
  wf := dot_S1048576x17_S17x1_S1048576x1_1_0_0_1_n_n_wf

class Facts : Prop extends Facts₀ where

variable [Facts]
-- ==== Proof.BlockOps.lean ====
/-
  The kernel's vector operations on one block of 8192 rows, read at an entry `(r, j)`.

  A product of an [8192, 17] block with a [17, 17] (or [17, 1]) weight block into a zero accumulator is, at
  entry `(r, j)`, the sum over the 17 hidden units `k` of `P (r, k) · W (k, j)`: the contraction runs over the
  left operand's columns and the right operand's rows. A bias vector of 17 laid along the rows reads its entry
  `j` at every row; a column of 8192 laid along the hidden units reads its entry `r` at every unit.
-/
import proofs.«121907_j79104707658373_1_alg».proof.KernelIdeal
import proofs.«121907_j79104707658373_1_alg».proof.Proof.Gen.KernelIdeal
import Idealize.ShloMosaic.PureOps.Ideal.Laws
import Idealize.ShloMosaic.Lib.ValueIdx
import Idealize.ShloMosaic.Lib.ValueLayout

noncomputable section

namespace Cert.KernelIdeal.Block

open Cert.KernelIdeal Cert.KernelIdeal.Facts₀ Idealize.ShloMosaic Idealize.ShloMosaic.ValueIdx

/-! ## The [8192, 17] × [17, 17] product -/

theorem lhs_sq_0 (i : S8192x17.Idx) (q : dot_S8192x17_S17x17_S8192x17_1_0_0_1_n_n.contr.Idx) :
    (dot_S8192x17_S17x17_S8192x17_1_0_0_1_n_n.lhsIdx i q 0).val = (i 0).val := by
  unfold DotDims.lhsIdx
  rw [dif_neg (show ¬(0 : Fin S8192x17.rank) ∈ dot_S8192x17_S17x17_S8192x17_1_0_0_1_n_n.lhsBatch by decide),
    dif_pos (show (0 : Fin S8192x17.rank) ∈ dot_S8192x17_S17x17_S8192x17_1_0_0_1_n_n.lhsNonContracting by decide)]
  rfl

theorem lhs_sq_1 (i : S8192x17.Idx) (q : dot_S8192x17_S17x17_S8192x17_1_0_0_1_n_n.contr.Idx) :
    (dot_S8192x17_S17x17_S8192x17_1_0_0_1_n_n.lhsIdx i q 1).val = (q ⟨0, by decide⟩).val :=
  dot_S8192x17_S17x17_S8192x17_1_0_0_1_n_n.lhsIdx_val_of_single rfl i q

theorem rhs_sq_0 (i : S8192x17.Idx) (q : dot_S8192x17_S17x17_S8192x17_1_0_0_1_n_n.contr.Idx) :
    (dot_S8192x17_S17x17_S8192x17_1_0_0_1_n_n.rhsIdx i q 0).val = (q ⟨0, by decide⟩).val :=
  dot_S8192x17_S17x17_S8192x17_1_0_0_1_n_n.rhsIdx_val_of_single rfl i q

theorem rhs_sq_1 (i : S8192x17.Idx) (q : dot_S8192x17_S17x17_S8192x17_1_0_0_1_n_n.contr.Idx) :
    (dot_S8192x17_S17x17_S8192x17_1_0_0_1_n_n.rhsIdx i q 1).val = (i 1).val := by
  unfold DotDims.rhsIdx
  rw [dif_neg (show ¬(1 : Fin S17x17.rank) ∈ dot_S8192x17_S17x17_S8192x17_1_0_0_1_n_n.rhsBatch by decide),
    dif_pos (show (1 : Fin S17x17.rank) ∈ dot_S8192x17_S17x17_S8192x17_1_0_0_1_n_n.rhsNonContracting by decide)]
  rfl

/-- Entry `(r, j)` of a block times a square weight block, accumulated from zero. -/
theorem matmul_sq {φ₁ φ₂ : FTy} (P : FVec Ideal S8192x17 φ₁) (W : FVec Ideal S17x17 φ₂) (r : Fin 8192) (j : Fin 17) :
    matmul dot_S8192x17_S17x17_S8192x17_1_0_0_1_n_n none P W (constant S8192x17 .f32 0x00000000#32) (ix2 r j)
      = ∑ k : Fin 17, P (ix2 r k) * W (ix2 k j) := by
  simp only [matmul]
  rw [Ideal.matmul_constant_zero_apply,
    ← Equiv.sum_comp (contrEquiv1 dot_S8192x17_S17x17_S8192x17_1_0_0_1_n_n 17 rfl rfl).symm]
  refine Finset.sum_congr rfl fun k _ => ?_
  have hk := contrEquiv1_symm_val dot_S8192x17_S17x17_S8192x17_1_0_0_1_n_n 17 rfl rfl k
  have el : dot_S8192x17_S17x17_S8192x17_1_0_0_1_n_n.lhsIdx (ix2 r j)
      ((contrEquiv1 dot_S8192x17_S17x17_S8192x17_1_0_0_1_n_n 17 rfl rfl).symm k) = ix2 r k :=
    funext fun a => Fin.ext (by
      match a with
      | ⟨0, _⟩ => exact lhs_sq_0 _ _
      | ⟨1, _⟩ => exact (lhs_sq_1 _ _).trans hk)
  have er : dot_S8192x17_S17x17_S8192x17_1_0_0_1_n_n.rhsIdx (ix2 r j)
      ((contrEquiv1 dot_S8192x17_S17x17_S8192x17_1_0_0_1_n_n 17 rfl rfl).symm k) = ix2 k j :=
    funext fun a => Fin.ext (by
      match a with
      | ⟨0, _⟩ => exact (rhs_sq_0 _ _).trans hk
      | ⟨1, _⟩ => exact rhs_sq_1 _ _)
  rw [el, er]

/-! ## The [8192, 17] × [17, 1] product -/

theorem lhs_col_0 (i : S8192x1.Idx) (q : dot_S8192x17_S17x1_S8192x1_1_0_0_1_n_n.contr.Idx) :
    (dot_S8192x17_S17x1_S8192x1_1_0_0_1_n_n.lhsIdx i q 0).val = (i 0).val := by
  unfold DotDims.lhsIdx
  rw [dif_neg (show ¬(0 : Fin S8192x17.rank) ∈ dot_S8192x17_S17x1_S8192x1_1_0_0_1_n_n.lhsBatch by decide),
    dif_pos (show (0 : Fin S8192x17.rank) ∈ dot_S8192x17_S17x1_S8192x1_1_0_0_1_n_n.lhsNonContracting by decide)]
  rfl

theorem lhs_col_1 (i : S8192x1.Idx) (q : dot_S8192x17_S17x1_S8192x1_1_0_0_1_n_n.contr.Idx) :
    (dot_S8192x17_S17x1_S8192x1_1_0_0_1_n_n.lhsIdx i q 1).val = (q ⟨0, by decide⟩).val :=
  dot_S8192x17_S17x1_S8192x1_1_0_0_1_n_n.lhsIdx_val_of_single rfl i q

theorem rhs_col_0 (i : S8192x1.Idx) (q : dot_S8192x17_S17x1_S8192x1_1_0_0_1_n_n.contr.Idx) :
    (dot_S8192x17_S17x1_S8192x1_1_0_0_1_n_n.rhsIdx i q 0).val = (q ⟨0, by decide⟩).val :=
  dot_S8192x17_S17x1_S8192x1_1_0_0_1_n_n.rhsIdx_val_of_single rfl i q

theorem rhs_col_1 (i : S8192x1.Idx) (q : dot_S8192x17_S17x1_S8192x1_1_0_0_1_n_n.contr.Idx) :
    (dot_S8192x17_S17x1_S8192x1_1_0_0_1_n_n.rhsIdx i q 1).val = (i 1).val := by
  unfold DotDims.rhsIdx
  rw [dif_neg (show ¬(1 : Fin S17x1.rank) ∈ dot_S8192x17_S17x1_S8192x1_1_0_0_1_n_n.rhsBatch by decide),
    dif_pos (show (1 : Fin S17x1.rank) ∈ dot_S8192x17_S17x1_S8192x1_1_0_0_1_n_n.rhsNonContracting by decide)]
  rfl

/-- Entry `(r, 0)` of a block times a weight column, accumulated from zero. -/
theorem matmul_col {φ₁ φ₂ : FTy} (P : FVec Ideal S8192x17 φ₁) (W : FVec Ideal S17x1 φ₂) (r : Fin 8192) (u : Fin 1) :
    matmul dot_S8192x17_S17x1_S8192x1_1_0_0_1_n_n none P W (constant S8192x1 .f32 0x00000000#32) (ix2 r u)
      = ∑ k : Fin 17, P (ix2 r k) * W (ix2 k u) := by
  simp only [matmul]
  rw [Ideal.matmul_constant_zero_apply,
    ← Equiv.sum_comp (contrEquiv1 dot_S8192x17_S17x1_S8192x1_1_0_0_1_n_n 17 rfl rfl).symm]
  refine Finset.sum_congr rfl fun k _ => ?_
  have hk := contrEquiv1_symm_val dot_S8192x17_S17x1_S8192x1_1_0_0_1_n_n 17 rfl rfl k
  have el : dot_S8192x17_S17x1_S8192x1_1_0_0_1_n_n.lhsIdx (ix2 r u)
      ((contrEquiv1 dot_S8192x17_S17x1_S8192x1_1_0_0_1_n_n 17 rfl rfl).symm k) = ix2 r k :=
    funext fun a => Fin.ext (by
      match a with
      | ⟨0, _⟩ => exact lhs_col_0 _ _
      | ⟨1, _⟩ => exact (lhs_col_1 _ _).trans hk)
  have er : dot_S8192x17_S17x1_S8192x1_1_0_0_1_n_n.rhsIdx (ix2 r u)
      ((contrEquiv1 dot_S8192x17_S17x1_S8192x1_1_0_0_1_n_n 17 rfl rfl).symm k) = ix2 k u :=
    funext fun a => Fin.ext (by
      match a with
      | ⟨0, _⟩ => exact (rhs_col_0 _ _).trans hk
      | ⟨1, _⟩ => exact rhs_col_1 _ _)
  rw [el, er]

/-! ## Broadcasts -/

variable {α : Type}

/-- A vector of 17 laid along every row of the block. -/
theorem bias_rows (b : S17.Idx → α) (r : Fin 8192) (j : Fin 17) :
    broadcastTo S8192x17 (shapeCast S1x17 b shapeCasts_S17_S1x17) broadcasts_S1x17_S8192x17 (ix2 r j) = b (ix1 j) :=
  (broadcastTo_1b_ab_apply _ _ r j).trans (shapeCast_a_1a_apply b _ 0 j)

/-- A [1, 17] row, flattened and re-laid, along every row of the block. -/
theorem row_rows (w : S1x17.Idx → α) (r : Fin 8192) (j : Fin 17) :
    broadcastTo S8192x17 (shapeCast S1x17 (shapeCast S17 w shapeCasts_S1x17_S17) shapeCasts_S17_S1x17)
      broadcasts_S1x17_S8192x17 (ix2 r j) = w (ix2 (0 : Fin 1) j) :=
  (bias_rows _ r j).trans (shapeCast_1a_a_apply w _ j)

/-- A column of 8192 laid along the 17 hidden units. -/
theorem col_rows (x : S8192x1.Idx → α) (r : Fin 8192) (j : Fin 17) :
    broadcastTo S8192x17 x broadcasts_S8192x1_S8192x17 (ix2 r j) = x (ix2 r (0 : Fin 1)) := by
  refine broadcastTo_apply x _ (ix2 r j) (ix2 r (0 : Fin 1)) fun ax => ?_
  match ax with
  | ⟨0, _⟩ => rfl
  | ⟨1, _⟩ => rfl

/-- The one-entry bias laid along the 8192 rows of the result column. -/
theorem bias_one (b : S1.Idx → α) (r : Fin 8192) (u : Fin 1) :
    broadcastTo S8192x1 (shapeCast S1x1 b shapeCasts_S1_S1x1) broadcasts_S1x1_S8192x1 (ix2 r u) = b (ix1 (0 : Fin 1)) := by
  refine (broadcastTo_apply _ _ (ix2 r u) (ix2 (0 : Fin 1) (0 : Fin 1)) fun ax => ?_).trans
    (shapeCast_a_1a_apply b _ 0 0)
  match ax with
  | ⟨0, _⟩ => rfl
  | ⟨1, _⟩ => rfl

end Cert.KernelIdeal.Block

end
-- ==== Proof.NetSpec.lean ====
/-
  The function both programs compute, written once over the extended reals.

  A batch row carries five scalars x₀ … x₄. Each is lifted to a hidden vector of 17 units,
  fᵢ = tanh (xᵢ · wf + bf). Neighbouring features exchange messages around the cycle a–b–c–d,
  M(p, q) = tanh (p · Wm₁ + q · Wm₂ + bm), where p · W is the product of a row with a 17 × 17 block.
  Each of the four cycle members is then updated from its two incoming messages and itself,
  U(m₁, m₂, f) = tanh (m₁ · Wu₁ + m₂ · Wu₂ + f · Wu₃ + f · Wu₄ + bu); the fifth feature receives no
  message, so its update is tanh (f · Wu₃ + f · Wu₄ + bu). The result of the row is the sum of the five
  updated vectors' inner products with the five column blocks of Wr, plus br.

  The blocks Wm₁, Wm₂ are the row ranges [0, 17) and [17, 34) of Wm; Wu₁ … Wu₄ the four ranges of 17 rows
  of Wu; the five readout columns the five ranges of 17 rows of Wr.

  Nothing here needs the inputs to be finite: sums and products of extended reals are only ever re-read,
  never re-associated or distributed; the one law used, that a zero row times any block is the zero row,
  is `zero_mul` on the extended reals (where 0 · ±∞ = 0).
-/
import Idealize.ShloMosaic.PureOps.Ideal
import Idealize.ShloMosaic.Lib.ValueIdx

noncomputable section

namespace Cert.Net

open Idealize.ShloMosaic Idealize.ShloMosaic.ValueIdx

/-- A hidden vector: one extended real per hidden unit. -/
abbrev Row := Fin 17 → EReal
/-- A 17 × 17 weight block; the first index is the contracted (input) unit. -/
abbrev Blk := Fin 17 → Fin 17 → EReal

/-- A row times a block: entry `j` is ∑ₖ pₖ · W k j. -/
def lin (p : Row) (W : Blk) : Row := fun j => ∑ k : Fin 17, p k * W k j

/-- A row times a column. -/
def dot (p w : Row) : EReal := ∑ k : Fin 17, p k * w k

/-- The feature layer on one scalar. -/
def feat (wf bf : Row) (x : EReal) : Row := fun j => Ideal.tanh (x * wf j + bf j)

/-- The message from `p` to its neighbour given the neighbour's feature `q`. -/
def msg (W1 W2 : Blk) (b : Row) (p q : Row) : Row := fun j => Ideal.tanh (lin p W1 j + lin q W2 j + b j)

/-- The update of a feature `f` from its two incoming messages. -/
def upd (W1 W2 W3 W4 : Blk) (b : Row) (m1 m2 f : Row) : Row :=
  fun j => Ideal.tanh (lin m1 W1 j + lin m2 W2 j + lin f W3 j + lin f W4 j + b j)

/-- The update of a feature that receives no message. -/
def updSelf (W3 W4 : Blk) (b : Row) (f : Row) : Row := fun j => Ideal.tanh (lin f W3 j + lin f W4 j + b j)

/-- The zero row times any block is the zero row: every term of the sum is `0 · w = 0`. -/
theorem lin_zero (W : Blk) (j : Fin 17) : lin (fun _ => (0 : EReal)) W j = 0 := by
  unfold lin
  exact Finset.sum_eq_zero fun k _ => zero_mul _

/-- With both incoming messages the zero row, the update is the message-free update: the two products vanish
    and `0 + 0 + x = x`. -/
theorem upd_zero (W1 W2 W3 W4 : Blk) (b f : Row) :
    upd W1 W2 W3 W4 b (fun _ => 0) (fun _ => 0) f = updSelf W3 W4 b f := by
  funext j
  unfold upd updSelf
  rw [lin_zero, lin_zero, zero_add, zero_add]

/-- The network's parameters as rows and blocks. -/
structure Params where
  wf : Row
  bf : Row
  wm1 : Blk
  wm2 : Blk
  bm : Row
  wu1 : Blk
  wu2 : Blk
  wu3 : Blk
  wu4 : Blk
  bu : Row
  wr1 : Row
  wr2 : Row
  wr3 : Row
  wr4 : Row
  wr5 : Row
  br : EReal

/-- Feature `i` of a row. -/
def F (θ : Params) (x : Fin 5 → EReal) (i : Fin 5) : Row := feat θ.wf θ.bf (x i)

/-- The message computed from features `i` (first operand) and `j` (second operand). -/
def M (θ : Params) (x : Fin 5 → EReal) (i j : Fin 5) : Row := msg θ.wm1 θ.wm2 θ.bm (F θ x i) (F θ x j)

/-- The update of feature `i` from the messages `M i j` and `M i k`. -/
def U (θ : Params) (x : Fin 5 → EReal) (i j k : Fin 5) : Row :=
  upd θ.wu1 θ.wu2 θ.wu3 θ.wu4 θ.bu (M θ x i j) (M θ x i k) (F θ x i)

/-- The update of the fifth feature, which has no neighbour. -/
def Ue (θ : Params) (x : Fin 5 → EReal) : Row := updSelf θ.wu3 θ.wu4 θ.bu (F θ x 4)

/-- The network on one row: the cycle is a = 0, b = 1, c = 2, d = 3; a hears from b and d, b from a and c,
    c from b and d, d from c and a. -/
def net (θ : Params) (x : Fin 5 → EReal) : EReal :=
  dot (U θ x 0 1 3) θ.wr1 + dot (U θ x 1 0 2) θ.wr2 + dot (U θ x 2 1 3) θ.wr3 + dot (U θ x 3 2 0) θ.wr4
    + dot (Ue θ x) θ.wr5 + θ.br

/-- Rows `[o, o + 17)` of a matrix with 17 columns, as a block. -/
def rowsBlk {n : Nat} (W : (⟨2, ![n, 17]⟩ : Shape).Idx → EReal) (o : Nat) (h : o + 17 ≤ n) : Blk :=
  fun k j => W (ix2 ⟨o + k.val, by have := k.isLt; omega⟩ j)

/-- Rows `[o, o + 17)` of a one-column matrix, as a row of 17. -/
def rowsCol {n : Nat} (W : (⟨2, ![n, 1]⟩ : Shape).Idx → EReal) (o : Nat) (h : o + 17 ≤ n) : Row :=
  fun k => W (ix2 ⟨o + k.val, by have := k.isLt; omega⟩ (0 : Fin 1))

/-- The parameters read out of the nine argument arrays. -/
def paramsOf (Wf : (⟨2, ![1, 17]⟩ : Shape).Idx → EReal) (bf : (⟨1, ![17]⟩ : Shape).Idx → EReal)
    (Wm : (⟨2, ![34, 17]⟩ : Shape).Idx → EReal) (bm : (⟨1, ![17]⟩ : Shape).Idx → EReal)
    (Wu : (⟨2, ![68, 17]⟩ : Shape).Idx → EReal) (bu : (⟨1, ![17]⟩ : Shape).Idx → EReal)
    (Wr : (⟨2, ![85, 1]⟩ : Shape).Idx → EReal) (br : (⟨1, ![1]⟩ : Shape).Idx → EReal) : Params where
  wf := fun j => Wf (ix2 (0 : Fin 1) j)
  bf := fun j => bf (ix1 j)
  wm1 := rowsBlk Wm 0 (by decide)
  wm2 := rowsBlk Wm 17 (by decide)
  bm := fun j => bm (ix1 j)
  wu1 := rowsBlk Wu 0 (by decide)
  wu2 := rowsBlk Wu 17 (by decide)
  wu3 := rowsBlk Wu 34 (by decide)
  wu4 := rowsBlk Wu 51 (by decide)
  bu := fun j => bu (ix1 j)
  wr1 := rowsCol Wr 0 (by decide)
  wr2 := rowsCol Wr 17 (by decide)
  wr3 := rowsCol Wr 34 (by decide)
  wr4 := rowsCol Wr 51 (by decide)
  wr5 := rowsCol Wr 68 (by decide)
  br := br (ix1 (0 : Fin 1))

/-- The whole result array as one function of the argument arrays: entry `(r, 0)` is the network on row `r`
    of the input matrix. -/
def G (X : (⟨2, ![1048576, 5]⟩ : Shape).Idx → EReal) (θ : Params) : (⟨2, ![1048576, 1]⟩ : Shape).Idx → EReal :=
  fun i => net θ (fun c => X (ix2 (i 0) c))

end Cert.Net

end
-- ==== Proof.WeightBlocks.lean ====
/-
  The network's parameters from the sixteen small arrays the programs actually multiply with, and their
  agreement with the parameters read out of the nine arguments.

  Both programs cut Wm into two, Wu into four and Wr into five pieces of 17 rows before any product. A piece
  cut from row `o` reads at `(k, j)` the matrix at `(o + k, j)`; so the parameters built from the pieces are
  the parameters built from the whole matrices.
-/
import proofs.«121907_j79104707658373_1_alg».proof.Proof.NetSpec
import Idealize.ShloMosaic.Lib.ValueLayout

noncomputable section

namespace Cert.Net

open Idealize.ShloMosaic Idealize.ShloMosaic.ValueIdx

/-- A [17, 17] array as a weight block. -/
abbrev blk (W : (⟨2, ![17, 17]⟩ : Shape).Idx → EReal) : Blk := fun k j => W (ix2 k j)
/-- A [17] array as a row. -/
abbrev vec (b : (⟨1, ![17]⟩ : Shape).Idx → EReal) : Row := fun j => b (ix1 j)
/-- A [17, 1] array as a row of 17. -/
abbrev col (w : (⟨2, ![17, 1]⟩ : Shape).Idx → EReal) : Row := fun k => w (ix2 k (0 : Fin 1))

/-- The parameters from the weight row, the three biases, the six square blocks, the five columns and the
    one-entry readout bias. -/
def paramsOfPieces (wf : (⟨2, ![1, 17]⟩ : Shape).Idx → EReal) (bf : (⟨1, ![17]⟩ : Shape).Idx → EReal)
    (wm1 wm2 : (⟨2, ![17, 17]⟩ : Shape).Idx → EReal) (bm : (⟨1, ![17]⟩ : Shape).Idx → EReal)
    (wu1 wu2 wu3 wu4 : (⟨2, ![17, 17]⟩ : Shape).Idx → EReal) (bu : (⟨1, ![17]⟩ : Shape).Idx → EReal)
    (wr1 wr2 wr3 wr4 wr5 : (⟨2, ![17, 1]⟩ : Shape).Idx → EReal) (br : (⟨1, ![1]⟩ : Shape).Idx → EReal) : Params where
  wf := fun j => wf (ix2 (0 : Fin 1) j)
  bf := vec bf
  wm1 := blk wm1
  wm2 := blk wm2
  bm := vec bm
  wu1 := blk wu1
  wu2 := blk wu2
  wu3 := blk wu3
  wu4 := blk wu4
  bu := vec bu
  wr1 := col wr1
  wr2 := col wr2
  wr3 := col wr3
  wr4 := col wr4
  wr5 := col wr5
  br := br (ix1 (0 : Fin 1))

/-- Seventeen rows cut from row `o` of a matrix with 17 columns are its block of rows `[o, o + 17)`. -/
theorem blk_slice {n : Nat} (W : (⟨2, ![n, 17]⟩ : Shape).Idx → EReal) (o : Nat)
    (h : (⟨2, ![n, 17]⟩ : Shape).Slices ![o, 0] ⟨2, ![17, 17]⟩) (hn : o + 17 ≤ n) :
    blk (extractStridedSlice ⟨2, ![17, 17]⟩ ![o, 0] W h) = rowsBlk W o hn :=
  funext fun k => funext fun j => slice2_axis0_apply o W h k j _ rfl

/-- Seventeen rows cut from row `o` of a one-column matrix are its rows `[o, o + 17)`. -/
theorem col_slice {n : Nat} (W : (⟨2, ![n, 1]⟩ : Shape).Idx → EReal) (o : Nat)
    (h : (⟨2, ![n, 1]⟩ : Shape).Slices ![o, 0] ⟨2, ![17, 1]⟩) (hn : o + 17 ≤ n) :
    col (extractStridedSlice ⟨2, ![17, 1]⟩ ![o, 0] W h) = rowsCol W o hn :=
  funext fun k => slice2_axis0_apply o W h k (0 : Fin 1) _ rfl

/-- The parameters from the eleven cut pieces are the parameters from the whole matrices. -/
theorem paramsOfPieces_slices (Wf : (⟨2, ![1, 17]⟩ : Shape).Idx → EReal) (bf : (⟨1, ![17]⟩ : Shape).Idx → EReal)
    (Wm : (⟨2, ![34, 17]⟩ : Shape).Idx → EReal) (bm : (⟨1, ![17]⟩ : Shape).Idx → EReal)
    (Wu : (⟨2, ![68, 17]⟩ : Shape).Idx → EReal) (bu : (⟨1, ![17]⟩ : Shape).Idx → EReal)
    (Wr : (⟨2, ![85, 1]⟩ : Shape).Idx → EReal) (br : (⟨1, ![1]⟩ : Shape).Idx → EReal)
    (hm0 : (⟨2, ![34, 17]⟩ : Shape).Slices ![0, 0] ⟨2, ![17, 17]⟩) (hm1 : (⟨2, ![34, 17]⟩ : Shape).Slices ![17, 0] ⟨2, ![17, 17]⟩)
    (hu0 : (⟨2, ![68, 17]⟩ : Shape).Slices ![0, 0] ⟨2, ![17, 17]⟩) (hu1 : (⟨2, ![68, 17]⟩ : Shape).Slices ![17, 0] ⟨2, ![17, 17]⟩)
    (hu2 : (⟨2, ![68, 17]⟩ : Shape).Slices ![34, 0] ⟨2, ![17, 17]⟩) (hu3 : (⟨2, ![68, 17]⟩ : Shape).Slices ![51, 0] ⟨2, ![17, 17]⟩)
    (hr0 : (⟨2, ![85, 1]⟩ : Shape).Slices ![0, 0] ⟨2, ![17, 1]⟩) (hr1 : (⟨2, ![85, 1]⟩ : Shape).Slices ![17, 0] ⟨2, ![17, 1]⟩)
    (hr2 : (⟨2, ![85, 1]⟩ : Shape).Slices ![34, 0] ⟨2, ![17, 1]⟩) (hr3 : (⟨2, ![85, 1]⟩ : Shape).Slices ![51, 0] ⟨2, ![17, 1]⟩)
    (hr4 : (⟨2, ![85, 1]⟩ : Shape).Slices ![68, 0] ⟨2, ![17, 1]⟩) :
    paramsOfPieces Wf bf (extractStridedSlice ⟨2, ![17, 17]⟩ ![0, 0] Wm hm0) (extractStridedSlice ⟨2, ![17, 17]⟩ ![17, 0] Wm hm1) bm
      (extractStridedSlice ⟨2, ![17, 17]⟩ ![0, 0] Wu hu0) (extractStridedSlice ⟨2, ![17, 17]⟩ ![17, 0] Wu hu1)
      (extractStridedSlice ⟨2, ![17, 17]⟩ ![34, 0] Wu hu2) (extractStridedSlice ⟨2, ![17, 17]⟩ ![51, 0] Wu hu3) bu
      (extractStridedSlice ⟨2, ![17, 1]⟩ ![0, 0] Wr hr0) (extractStridedSlice ⟨2, ![17, 1]⟩ ![17, 0] Wr hr1)
      (extractStridedSlice ⟨2, ![17, 1]⟩ ![34, 0] Wr hr2) (extractStridedSlice ⟨2, ![17, 1]⟩ ![51, 0] Wr hr3)
      (extractStridedSlice ⟨2, ![17, 1]⟩ ![68, 0] Wr hr4) br
      = paramsOf Wf bf Wm bm Wu bu Wr br := by
  unfold paramsOfPieces paramsOf
  rw [blk_slice Wm 0 hm0 (by decide), blk_slice Wm 17 hm1 (by decide), blk_slice Wu 0 hu0 (by decide),
    blk_slice Wu 17 hu1 (by decide), blk_slice Wu 34 hu2 (by decide), blk_slice Wu 51 hu3 (by decide),
    col_slice Wr 0 hr0 (by decide), col_slice Wr 17 hr1 (by decide), col_slice Wr 34 hr2 (by decide),
    col_slice Wr 51 hr3 (by decide), col_slice Wr 68 hr4 (by decide)]

end Cert.Net

end
-- ==== Proof.BlockLayers.lean ====
/-
  The kernel's layers on one block, row by row.

  Each layer of the body is a vector expression over [8192, 17] blocks. Read at entry `(r, j)` it is the
  corresponding layer of the network applied to row `r` of its operands: the feature layer to the scalar
  `x (r, 0)`, a message to the two feature rows, an update to two message rows and a feature row, and the
  readout to the five updated rows. The conversions to bf16 in front of each product are the identity on
  extended reals, and each product accumulates from zero, so nothing but the sums is left.
-/
import proofs.«121907_j79104707658373_1_alg».proof.Proof.BlockOps
import proofs.«121907_j79104707658373_1_alg».proof.Proof.WeightBlocks
import proofs.«121907_j79104707658373_1_alg».proof.Proof.Gen.KernelIdeal.Skeleton

noncomputable section

namespace Cert.KernelIdeal.Block

open Cert.KernelIdeal Cert.KernelIdeal.Gen Idealize.ShloMosaic Idealize.ShloMosaic.ValueIdx Cert.Net

/-- The elementwise hyperbolic tangent of a vector, at an entry. -/
theorem tanh_at {s : Shape} {φ : FTy} (v : FVec Ideal s φ) (i : s.Idx) : tanh v i = Ideal.tanh (v i) := rfl

/-! ## The layers over general operands -/

/-- The feature layer: a column of scalars times the weight row, plus the bias, through tanh. -/
theorem feat_core (w : Vec Ideal S1x17 .f32) (b : Vec Ideal S17 .f32) (x : Vec Ideal S8192x1 .f32) (r : Fin 8192) (j : Fin 17) :
    tanh (F := Ideal) (φ := .f32) (addf (mulf (broadcastTo S8192x17 x broadcasts_S8192x1_S8192x17)
        (broadcastTo S8192x17 (shapeCast S1x17 (shapeCast S17 w shapeCasts_S1x17_S17) shapeCasts_S17_S1x17) broadcasts_S1x17_S8192x17))
        (broadcastTo S8192x17 (shapeCast S1x17 b shapeCasts_S17_S1x17) broadcasts_S1x17_S8192x17)) (ix2 r j)
      = feat (fun j => w (ix2 (0 : Fin 1) j)) (vec b) (x (ix2 r (0 : Fin 1))) j := by
  unfold feat
  rw [tanh_at, addf_apply, mulf_apply, col_rows, row_rows, bias_rows]

/-- A message: two products, the bias, tanh. -/
theorem msg_core {P Q : FVec Ideal S8192x17 .f32} {p q : Fin 8192 → Row} (W1 W2 : FVec Ideal S17x17 .f32) (b : Vec Ideal S17 .f32)
    (hP : ∀ r k, P (ix2 r k) = p r k) (hQ : ∀ r k, Q (ix2 r k) = q r k) (r : Fin 8192) (j : Fin 17) :
    tanh (addf (addf (matmul dot_S8192x17_S17x17_S8192x17_1_0_0_1_n_n none (truncf .bf16 P bitsLt_bf16_f32) (truncf .bf16 W1 bitsLt_bf16_f32) (constant S8192x17 .f32 0x00000000#32)) (matmul dot_S8192x17_S17x17_S8192x17_1_0_0_1_n_n none (truncf .bf16 Q bitsLt_bf16_f32) (truncf .bf16 W2 bitsLt_bf16_f32) (constant S8192x17 .f32 0x00000000#32))) (broadcastTo S8192x17 (shapeCast S1x17 b shapeCasts_S17_S1x17) broadcasts_S1x17_S8192x17)) (ix2 r j)
      = msg (blk W1) (blk W2) (vec b) (p r) (q r) j := by
  unfold msg lin
  rw [tanh_at, addf_apply, addf_apply, matmul_sq, matmul_sq, bias_rows]
  simp only [truncf_apply, hP, hQ]

/-- An update: four products (the feature enters twice), the bias, tanh. -/
theorem upd_core {M1 M2 Fv : FVec Ideal S8192x17 .f32} {m1 m2 f : Fin 8192 → Row} (W1 W2 W3 W4 : FVec Ideal S17x17 .f32)
    (b : Vec Ideal S17 .f32) (h1 : ∀ r k, M1 (ix2 r k) = m1 r k) (h2 : ∀ r k, M2 (ix2 r k) = m2 r k)
    (hf : ∀ r k, Fv (ix2 r k) = f r k) (r : Fin 8192) (j : Fin 17) :
    tanh (addf (addf (addf (addf (matmul dot_S8192x17_S17x17_S8192x17_1_0_0_1_n_n none (truncf .bf16 M1 bitsLt_bf16_f32) (truncf .bf16 W1 bitsLt_bf16_f32) (constant S8192x17 .f32 0x00000000#32)) (matmul dot_S8192x17_S17x17_S8192x17_1_0_0_1_n_n none (truncf .bf16 M2 bitsLt_bf16_f32) (truncf .bf16 W2 bitsLt_bf16_f32) (constant S8192x17 .f32 0x00000000#32))) (matmul dot_S8192x17_S17x17_S8192x17_1_0_0_1_n_n none (truncf .bf16 Fv bitsLt_bf16_f32) (truncf .bf16 W3 bitsLt_bf16_f32) (constant S8192x17 .f32 0x00000000#32))) (matmul dot_S8192x17_S17x17_S8192x17_1_0_0_1_n_n none (truncf .bf16 Fv bitsLt_bf16_f32) (truncf .bf16 W4 bitsLt_bf16_f32) (constant S8192x17 .f32 0x00000000#32))) (broadcastTo S8192x17 (shapeCast S1x17 b shapeCasts_S17_S1x17) broadcasts_S1x17_S8192x17)) (ix2 r j)
      = upd (blk W1) (blk W2) (blk W3) (blk W4) (vec b) (m1 r) (m2 r) (f r) j := by
  unfold upd lin
  rw [tanh_at, addf_apply, addf_apply, addf_apply, addf_apply, matmul_sq, matmul_sq, matmul_sq, matmul_sq, bias_rows]
  simp only [truncf_apply, h1, h2, hf]

/-- The message-free update: two products of the feature, the bias, tanh. -/
theorem updSelf_core {Fv : FVec Ideal S8192x17 .f32} {f : Fin 8192 → Row} (W3 W4 : FVec Ideal S17x17 .f32)
    (b : Vec Ideal S17 .f32) (hf : ∀ r k, Fv (ix2 r k) = f r k) (r : Fin 8192) (j : Fin 17) :
    tanh (addf (addf (matmul dot_S8192x17_S17x17_S8192x17_1_0_0_1_n_n none (truncf .bf16 Fv bitsLt_bf16_f32) (truncf .bf16 W3 bitsLt_bf16_f32) (constant S8192x17 .f32 0x00000000#32)) (matmul dot_S8192x17_S17x17_S8192x17_1_0_0_1_n_n none (truncf .bf16 Fv bitsLt_bf16_f32) (truncf .bf16 W4 bitsLt_bf16_f32) (constant S8192x17 .f32 0x00000000#32))) (broadcastTo S8192x17 (shapeCast S1x17 b shapeCasts_S17_S1x17) broadcasts_S1x17_S8192x17)) (ix2 r j)
      = updSelf (blk W3) (blk W4) (vec b) (f r) j := by
  unfold updSelf lin
  rw [tanh_at, addf_apply, addf_apply, matmul_sq, matmul_sq, bias_rows]
  simp only [truncf_apply, hf]

/-! ## The payloads -/

theorem pay10_eq (v : Vec Ideal S17x17 .f32) : k0_pay10 v = v := shapeCast_self v _
theorem pay11_eq (v : Vec Ideal S17x17 .f32) : k0_pay11 v = v := shapeCast_self v _
theorem pay21_eq (v : Vec Ideal S17x17 .f32) : k0_pay21 v = v := shapeCast_self v _
theorem pay22_eq (v : Vec Ideal S17x17 .f32) : k0_pay22 v = v := shapeCast_self v _
theorem pay23_eq (v : Vec Ideal S17x17 .f32) : k0_pay23 v = v := shapeCast_self v _
theorem pay24_eq (v : Vec Ideal S17x17 .f32) : k0_pay24 v = v := shapeCast_self v _

section Features
variable (w : Vec Ideal S1x17 .f32) (b : Vec Ideal S17 .f32) (x : Vec Ideal S8192x1 .f32) (r : Fin 8192) (j : Fin 17)

theorem pay3_rows : k0_pay3 w b x (ix2 r j) = feat (fun j => w (ix2 (0 : Fin 1) j)) (vec b) (x (ix2 r (0 : Fin 1))) j :=
  feat_core w b x r j
theorem pay4_rows : k0_pay4 w b x (ix2 r j) = feat (fun j => w (ix2 (0 : Fin 1) j)) (vec b) (x (ix2 r (0 : Fin 1))) j :=
  feat_core w b x r j
theorem pay5_rows : k0_pay5 w b x (ix2 r j) = feat (fun j => w (ix2 (0 : Fin 1) j)) (vec b) (x (ix2 r (0 : Fin 1))) j :=
  feat_core w b x r j
theorem pay6_rows : k0_pay6 w b x (ix2 r j) = feat (fun j => w (ix2 (0 : Fin 1) j)) (vec b) (x (ix2 r (0 : Fin 1))) j :=
  feat_core w b x r j
/-- The fifth feature is computed in three pieces (the product, the bias, then the sum through tanh). -/
theorem pay9_rows : k0_pay9 (k0_pay7 w x) (k0_pay8 b) (ix2 r j) = feat (fun j => w (ix2 (0 : Fin 1) j)) (vec b) (x (ix2 r (0 : Fin 1))) j :=
  feat_core w b x r j
end Features

section Messages
variable {P Q : FVec Ideal S8192x17 .f32} {p q : Fin 8192 → Row} (A B : Vec Ideal S17x17 .f32) (b : Vec Ideal S17 .f32)
  (hP : ∀ r k, P (ix2 r k) = p r k) (hQ : ∀ r k, Q (ix2 r k) = q r k) (r : Fin 8192) (j : Fin 17)
include hP hQ

/-- First operand through the first block. -/
theorem pay12_rows : k0_pay12 P Q A B b (ix2 r j) = msg (blk A) (blk B) (vec b) (p r) (q r) j := by
  unfold k0_pay12; rw [pay10_eq, pay11_eq]; exact msg_core A B b hP hQ r j
/-- Second operand through the first block: the message the other way. -/
theorem pay13_rows : k0_pay13 P Q A B b (ix2 r j) = msg (blk A) (blk B) (vec b) (q r) (p r) j := by
  unfold k0_pay13; rw [pay10_eq, pay11_eq]; exact msg_core A B b hQ hP r j
theorem pay14_rows : k0_pay14 P Q A B b (ix2 r j) = msg (blk A) (blk B) (vec b) (p r) (q r) j := by
  unfold k0_pay14; rw [pay10_eq, pay11_eq]; exact msg_core A B b hP hQ r j
/-- This message is computed in two pieces: the two products, then the bias through tanh. -/
theorem pay16_rows : k0_pay16 b (k0_pay15 P Q A B) (ix2 r j) = msg (blk A) (blk B) (vec b) (q r) (p r) j := by
  unfold k0_pay16 k0_pay15; rw [pay10_eq, pay11_eq]; exact msg_core A B b hQ hP r j
theorem pay17_rows : k0_pay17 P Q A B b (ix2 r j) = msg (blk A) (blk B) (vec b) (p r) (q r) j :=
  msg_core A B b hP hQ r j
theorem pay18_rows : k0_pay18 P Q A B b (ix2 r j) = msg (blk A) (blk B) (vec b) (q r) (p r) j :=
  msg_core A B b hQ hP r j
theorem pay19_rows : k0_pay19 P Q A B b (ix2 r j) = msg (blk A) (blk B) (vec b) (q r) (p r) j :=
  msg_core A B b hQ hP r j
theorem pay20_rows : k0_pay20 P Q A B b (ix2 r j) = msg (blk A) (blk B) (vec b) (p r) (q r) j :=
  msg_core A B b hP hQ r j
end Messages

section Updates
variable {Fv M1 M2 : FVec Ideal S8192x17 .f32} {f m1 m2 : Fin 8192 → Row} (W1 W2 W3 W4 : Vec Ideal S17x17 .f32) (b : Vec Ideal S17 .f32)
  (hf : ∀ r k, Fv (ix2 r k) = f r k) (h1 : ∀ r k, M1 (ix2 r k) = m1 r k) (h2 : ∀ r k, M2 (ix2 r k) = m2 r k)
  (r : Fin 8192) (j : Fin 17)
include hf

theorem pay29_rows : k0_pay29 Fv W3 W4 b (ix2 r j) = updSelf (blk W3) (blk W4) (vec b) (f r) j :=
  updSelf_core W3 W4 b hf r j

include h1 h2

theorem pay25_rows : k0_pay25 Fv M1 M2 W1 W2 W3 W4 b (ix2 r j)
    = upd (blk W1) (blk W2) (blk W3) (blk W4) (vec b) (m1 r) (m2 r) (f r) j := by
  unfold k0_pay25; rw [pay22_eq, pay23_eq, pay24_eq]; exact upd_core W1 W2 W3 W4 b h1 h2 hf r j
theorem pay26_rows : k0_pay26 Fv M1 M2 W1 W2 W3 W4 b (ix2 r j)
    = upd (blk W1) (blk W2) (blk W3) (blk W4) (vec b) (m1 r) (m2 r) (f r) j := by
  unfold k0_pay26; rw [pay22_eq, pay23_eq, pay24_eq]; exact upd_core W1 W2 W3 W4 b h1 h2 hf r j
theorem pay27_rows : k0_pay27 Fv M1 M2 W1 W2 W3 W4 b (ix2 r j)
    = upd (blk W1) (blk W2) (blk W3) (blk W4) (vec b) (m1 r) (m2 r) (f r) j :=
  upd_core W1 W2 W3 W4 b h1 h2 hf r j
theorem pay28_rows : k0_pay28 Fv M1 M2 W1 W2 W3 W4 b (ix2 r j)
    = upd (blk W1) (blk W2) (blk W3) (blk W4) (vec b) (m1 r) (m2 r) (f r) j :=
  upd_core W1 W2 W3 W4 b h1 h2 hf r j
end Updates

/-- The readout: five products with the weight columns, summed left to right, plus the one-entry bias. -/
theorem pay1_rows {Ua Ub Uc Ud Ue : FVec Ideal S8192x17 .f32} {ua ub uc ud ue : Fin 8192 → Row}
    (w1 w2 w3 w4 w5 : Vec Ideal S17x1 .f32) (b : Vec Ideal S1 .f32)
    (ha : ∀ r k, Ua (ix2 r k) = ua r k) (hb : ∀ r k, Ub (ix2 r k) = ub r k) (hc : ∀ r k, Uc (ix2 r k) = uc r k)
    (hd : ∀ r k, Ud (ix2 r k) = ud r k) (he : ∀ r k, Ue (ix2 r k) = ue r k) (r : Fin 8192) (u : Fin 1) :
    k0_pay1 Ua Ub Uc Ud Ue w1 w2 w3 w4 w5 b (ix2 r u)
      = dot (ua r) (col w1) + dot (ub r) (col w2) + dot (uc r) (col w3) + dot (ud r) (col w4) + dot (ue r) (col w5)
        + b (ix1 (0 : Fin 1)) := by
  have hu : u = 0 := Fin.ext (by have := u.isLt; omega)
  subst hu
  unfold k0_pay1 dot
  simp only [shapeCast_self]
  rw [addf_apply, addf_apply, addf_apply, addf_apply, addf_apply, matmul_col, matmul_col, matmul_col, matmul_col,
    matmul_col, bias_one]
  simp only [truncf_apply, ha, hb, hc, hd, he]

end Cert.KernelIdeal.Block

end
-- ==== Proof.BlockValue.lean ====
/-
  What the kernel leaves in one output block.

  The body stores one [8192, 1] vector: the readout of the five updated blocks. Unfolding the body's value
  layer by layer — readout over updates over messages over features over the five columns of the input block —
  entry `(r, 0)` of the stored vector is the network, with the parameters the weight windows hold, applied to
  row `r` of the input block.
-/
import proofs.«121907_j79104707658373_1_alg».proof.Proof.BlockLayers
import proofs.«121907_j79104707658373_1_alg».proof.Proof.Gen.KernelIdeal.Frame
import Idealize.ShloMosaic.Lib.Pipeline.Value

set_option maxRecDepth 16384

noncomputable section

namespace Cert.KernelIdeal.Block

open Cert.KernelIdeal Cert.KernelIdeal.Gen Idealize.ShloMosaic Idealize.ShloMosaic.ValueIdx Cert.Net

theorem off2 : (![0, 0] : Fin 2 → Nat) = fun _ => 0 := funext fun a => by fin_cases a <;> rfl
theorem off1 : (![0] : Fin 1 → Nat) = fun _ => 0 := funext fun a => by fin_cases a; rfl

/-- Column `c` of the input block, loaded as an [8192, 1] vector, reads at row `r` the block at `(r, c)`. -/
theorem ld_col (x0 : Vec Ideal S8192x5 .f32) (o : Nat) (inb : ∀ a, (![0, o] : Fin 2 → Nat) a + S8192x1.size a ≤ S8192x5.size a)
    (c : Fin 5) (hc : c.val = o) (r : Fin 8192) (u : Fin 1) :
    View.ld x0 (Rect.unit (s := S8192x5) ![0, o] S8192x1.size inb) (ix2 r u) = x0 (ix2 r c) := by
  show x0 _ = x0 _
  refine congrArg x0 (funext fun a => Fin.ext ?_)
  match a with
  | ⟨0, _⟩ => show 0 + 1 * r.val = r.val; omega
  | ⟨1, _⟩ => show o + 1 * u.val = c.val; have := u.isLt; omega

variable (x0 : Vec Ideal S8192x5 .f32) (x1 : Vec Ideal S1x17 .f32) (x2 : Vec Ideal S17 .f32)
  (x3 x4 : Vec Ideal S17x17 .f32) (x5 : Vec Ideal S17 .f32) (x6 x7 x8 x9 : Vec Ideal S17x17 .f32) (x10 : Vec Ideal S17 .f32)
  (x11 x12 x13 x14 x15 : Vec Ideal S17x1 .f32) (x16 : Vec Ideal S1 .f32)

/-- The body's stored value with the whole-buffer loads and same-shape casts read away. -/
theorem out_eq : out0_17 x0 x1 x2 x3 x4 x5 x6 x7 x8 x9 x10 x11 x12 x13 x14 x15 x16
    = k0_pay1 (k0_pay25 (k0_pay3 x1 x2 (View.ld x0 r0_2)) (k0_pay12 (k0_pay3 x1 x2 (View.ld x0 r0_2)) (k0_pay4 x1 x2 (View.ld x0 r0_3)) x3 x4 x5) (k0_pay20 (k0_pay3 x1 x2 (View.ld x0 r0_2)) (k0_pay6 x1 x2 (View.ld x0 r0_5)) x3 x4 x5) x6 x7 x8 x9 x10) (k0_pay26 (k0_pay4 x1 x2 (View.ld x0 r0_3)) (k0_pay13 (k0_pay3 x1 x2 (View.ld x0 r0_2)) (k0_pay4 x1 x2 (View.ld x0 r0_3)) x3 x4 x5) (k0_pay14 (k0_pay4 x1 x2 (View.ld x0 r0_3)) (k0_pay5 x1 x2 (View.ld x0 r0_4)) x3 x4 x5) x6 x7 x8 x9 x10) (k0_pay27 (k0_pay5 x1 x2 (View.ld x0 r0_4)) (k0_pay16 x5 (k0_pay15 (k0_pay4 x1 x2 (View.ld x0 r0_3)) (k0_pay5 x1 x2 (View.ld x0 r0_4)) x3 x4)) (k0_pay17 (k0_pay5 x1 x2 (View.ld x0 r0_4)) (k0_pay6 x1 x2 (View.ld x0 r0_5)) x3 x4 x5) x6 x7 x8 x9 x10) (k0_pay28 (k0_pay6 x1 x2 (View.ld x0 r0_5)) (k0_pay18 (k0_pay5 x1 x2 (View.ld x0 r0_4)) (k0_pay6 x1 x2 (View.ld x0 r0_5)) x3 x4 x5) (k0_pay19 (k0_pay3 x1 x2 (View.ld x0 r0_2)) (k0_pay6 x1 x2 (View.ld x0 r0_5)) x3 x4 x5) x6 x7 x8 x9 x10) (k0_pay29 (k0_pay9 (k0_pay7 x1 (View.ld x0 r0_6)) (k0_pay8 x2)) x8 x9 x10) x11 x12 x13 x14 x15 x16 := by
  unfold out0_17
  rw [View.canon_unit_zero off2]
  simp only [View.ld_unit_zero (S := S1x17) off2, View.ld_unit_zero (S := S17) off1, View.ld_unit_zero (S := S17x17) off2,
    View.ld_unit_zero (S := S17x1) off2, View.ld_unit_zero (S := S1) off1, pay10_eq, pay11_eq, pay21_eq, pay22_eq, pay23_eq, pay24_eq]

/-- Entry `(r, 0)` of the stored vector: the network on row `r` of the input block. -/
theorem out_rows (r : Fin 8192) (u : Fin 1) :
    out0_17 x0 x1 x2 x3 x4 x5 x6 x7 x8 x9 x10 x11 x12 x13 x14 x15 x16 (ix2 r u)
      = net (paramsOfPieces x1 x2 x3 x4 x5 x6 x7 x8 x9 x10 x11 x12 x13 x14 x15 x16) (fun c => x0 (ix2 r c)) := by
  rw [out_eq]
  have fa : ∀ r k, (k0_pay3 x1 x2 (View.ld x0 r0_2)) (ix2 r k) = F (paramsOfPieces x1 x2 x3 x4 x5 x6 x7 x8 x9 x10 x11 x12 x13 x14 x15 x16) (fun c => x0 (ix2 r c)) 0 k :=
    fun r k => (pay3_rows x1 x2 _ r k).trans (by rw [ld_col x0 0 _ 0 rfl]; rfl)
  have fb : ∀ r k, (k0_pay4 x1 x2 (View.ld x0 r0_3)) (ix2 r k) = F (paramsOfPieces x1 x2 x3 x4 x5 x6 x7 x8 x9 x10 x11 x12 x13 x14 x15 x16) (fun c => x0 (ix2 r c)) 1 k :=
    fun r k => (pay4_rows x1 x2 _ r k).trans (by rw [ld_col x0 1 _ 1 rfl]; rfl)
  have fc : ∀ r k, (k0_pay5 x1 x2 (View.ld x0 r0_4)) (ix2 r k) = F (paramsOfPieces x1 x2 x3 x4 x5 x6 x7 x8 x9 x10 x11 x12 x13 x14 x15 x16) (fun c => x0 (ix2 r c)) 2 k :=
    fun r k => (pay5_rows x1 x2 _ r k).trans (by rw [ld_col x0 2 _ 2 rfl]; rfl)
  have fd : ∀ r k, (k0_pay6 x1 x2 (View.ld x0 r0_5)) (ix2 r k) = F (paramsOfPieces x1 x2 x3 x4 x5 x6 x7 x8 x9 x10 x11 x12 x13 x14 x15 x16) (fun c => x0 (ix2 r c)) 3 k :=
    fun r k => (pay6_rows x1 x2 _ r k).trans (by rw [ld_col x0 3 _ 3 rfl]; rfl)
  have fe : ∀ r k, (k0_pay9 (k0_pay7 x1 (View.ld x0 r0_6)) (k0_pay8 x2)) (ix2 r k) = F (paramsOfPieces x1 x2 x3 x4 x5 x6 x7 x8 x9 x10 x11 x12 x13 x14 x15 x16) (fun c => x0 (ix2 r c)) 4 k :=
    fun r k => (pay9_rows x1 x2 _ r k).trans (by rw [ld_col x0 4 _ 4 rfl]; rfl)
  have mab : ∀ r k, (k0_pay12 (k0_pay3 x1 x2 (View.ld x0 r0_2)) (k0_pay4 x1 x2 (View.ld x0 r0_3)) x3 x4 x5) (ix2 r k) = M (paramsOfPieces x1 x2 x3 x4 x5 x6 x7 x8 x9 x10 x11 x12 x13 x14 x15 x16) (fun c => x0 (ix2 r c)) 0 1 k :=
    fun r k => pay12_rows x3 x4 x5 fa fb r k
  have mad : ∀ r k, (k0_pay20 (k0_pay3 x1 x2 (View.ld x0 r0_2)) (k0_pay6 x1 x2 (View.ld x0 r0_5)) x3 x4 x5) (ix2 r k) = M (paramsOfPieces x1 x2 x3 x4 x5 x6 x7 x8 x9 x10 x11 x12 x13 x14 x15 x16) (fun c => x0 (ix2 r c)) 0 3 k :=
    fun r k => pay20_rows x3 x4 x5 fa fd r k
  have mba : ∀ r k, (k0_pay13 (k0_pay3 x1 x2 (View.ld x0 r0_2)) (k0_pay4 x1 x2 (View.ld x0 r0_3)) x3 x4 x5) (ix2 r k) = M (paramsOfPieces x1 x2 x3 x4 x5 x6 x7 x8 x9 x10 x11 x12 x13 x14 x15 x16) (fun c => x0 (ix2 r c)) 1 0 k :=
    fun r k => pay13_rows x3 x4 x5 fa fb r k
  have mbc : ∀ r k, (k0_pay14 (k0_pay4 x1 x2 (View.ld x0 r0_3)) (k0_pay5 x1 x2 (View.ld x0 r0_4)) x3 x4 x5) (ix2 r k) = M (paramsOfPieces x1 x2 x3 x4 x5 x6 x7 x8 x9 x10 x11 x12 x13 x14 x15 x16) (fun c => x0 (ix2 r c)) 1 2 k :=
    fun r k => pay14_rows x3 x4 x5 fb fc r k
  have mcb : ∀ r k, (k0_pay16 x5 (k0_pay15 (k0_pay4 x1 x2 (View.ld x0 r0_3)) (k0_pay5 x1 x2 (View.ld x0 r0_4)) x3 x4)) (ix2 r k) = M (paramsOfPieces x1 x2 x3 x4 x5 x6 x7 x8 x9 x10 x11 x12 x13 x14 x15 x16) (fun c => x0 (ix2 r c)) 2 1 k :=
    fun r k => pay16_rows x3 x4 x5 fb fc r k
  have mcd : ∀ r k, (k0_pay17 (k0_pay5 x1 x2 (View.ld x0 r0_4)) (k0_pay6 x1 x2 (View.ld x0 r0_5)) x3 x4 x5) (ix2 r k) = M (paramsOfPieces x1 x2 x3 x4 x5 x6 x7 x8 x9 x10 x11 x12 x13 x14 x15 x16) (fun c => x0 (ix2 r c)) 2 3 k :=
    fun r k => pay17_rows x3 x4 x5 fc fd r k
  have mdc : ∀ r k, (k0_pay18 (k0_pay5 x1 x2 (View.ld x0 r0_4)) (k0_pay6 x1 x2 (View.ld x0 r0_5)) x3 x4 x5) (ix2 r k) = M (paramsOfPieces x1 x2 x3 x4 x5 x6 x7 x8 x9 x10 x11 x12 x13 x14 x15 x16) (fun c => x0 (ix2 r c)) 3 2 k :=
    fun r k => pay18_rows x3 x4 x5 fc fd r k
  have mda : ∀ r k, (k0_pay19 (k0_pay3 x1 x2 (View.ld x0 r0_2)) (k0_pay6 x1 x2 (View.ld x0 r0_5)) x3 x4 x5) (ix2 r k) = M (paramsOfPieces x1 x2 x3 x4 x5 x6 x7 x8 x9 x10 x11 x12 x13 x14 x15 x16) (fun c => x0 (ix2 r c)) 3 0 k :=
    fun r k => pay19_rows x3 x4 x5 fa fd r k
  have ua : ∀ r k, (k0_pay25 (k0_pay3 x1 x2 (View.ld x0 r0_2)) (k0_pay12 (k0_pay3 x1 x2 (View.ld x0 r0_2)) (k0_pay4 x1 x2 (View.ld x0 r0_3)) x3 x4 x5) (k0_pay20 (k0_pay3 x1 x2 (View.ld x0 r0_2)) (k0_pay6 x1 x2 (View.ld x0 r0_5)) x3 x4 x5) x6 x7 x8 x9 x10) (ix2 r k) = U (paramsOfPieces x1 x2 x3 x4 x5 x6 x7 x8 x9 x10 x11 x12 x13 x14 x15 x16) (fun c => x0 (ix2 r c)) 0 1 3 k :=
    fun r k => pay25_rows x6 x7 x8 x9 x10 fa mab mad r k
  have ub : ∀ r k, (k0_pay26 (k0_pay4 x1 x2 (View.ld x0 r0_3)) (k0_pay13 (k0_pay3 x1 x2 (View.ld x0 r0_2)) (k0_pay4 x1 x2 (View.ld x0 r0_3)) x3 x4 x5) (k0_pay14 (k0_pay4 x1 x2 (View.ld x0 r0_3)) (k0_pay5 x1 x2 (View.ld x0 r0_4)) x3 x4 x5) x6 x7 x8 x9 x10) (ix2 r k) = U (paramsOfPieces x1 x2 x3 x4 x5 x6 x7 x8 x9 x10 x11 x12 x13 x14 x15 x16) (fun c => x0 (ix2 r c)) 1 0 2 k :=
    fun r k => pay26_rows x6 x7 x8 x9 x10 fb mba mbc r k
  have uc : ∀ r k, (k0_pay27 (k0_pay5 x1 x2 (View.ld x0 r0_4)) (k0_pay16 x5 (k0_pay15 (k0_pay4 x1 x2 (View.ld x0 r0_3)) (k0_pay5 x1 x2 (View.ld x0 r0_4)) x3 x4)) (k0_pay17 (k0_pay5 x1 x2 (View.ld x0 r0_4)) (k0_pay6 x1 x2 (View.ld x0 r0_5)) x3 x4 x5) x6 x7 x8 x9 x10) (ix2 r k) = U (paramsOfPieces x1 x2 x3 x4 x5 x6 x7 x8 x9 x10 x11 x12 x13 x14 x15 x16) (fun c => x0 (ix2 r c)) 2 1 3 k :=
    fun r k => pay27_rows x6 x7 x8 x9 x10 fc mcb mcd r k
  have ud : ∀ r k, (k0_pay28 (k0_pay6 x1 x2 (View.ld x0 r0_5)) (k0_pay18 (k0_pay5 x1 x2 (View.ld x0 r0_4)) (k0_pay6 x1 x2 (View.ld x0 r0_5)) x3 x4 x5) (k0_pay19 (k0_pay3 x1 x2 (View.ld x0 r0_2)) (k0_pay6 x1 x2 (View.ld x0 r0_5)) x3 x4 x5) x6 x7 x8 x9 x10) (ix2 r k) = U (paramsOfPieces x1 x2 x3 x4 x5 x6 x7 x8 x9 x10 x11 x12 x13 x14 x15 x16) (fun c => x0 (ix2 r c)) 3 2 0 k :=
    fun r k => pay28_rows x6 x7 x8 x9 x10 fd mdc mda r k
  have ue : ∀ r k, (k0_pay29 (k0_pay9 (k0_pay7 x1 (View.ld x0 r0_6)) (k0_pay8 x2)) x8 x9 x10) (ix2 r k) = Ue (paramsOfPieces x1 x2 x3 x4 x5 x6 x7 x8 x9 x10 x11 x12 x13 x14 x15 x16) (fun c => x0 (ix2 r c)) k :=
    fun r k => pay29_rows x8 x9 x10 fe r k
  exact pay1_rows x11 x12 x13 x14 x15 x16 ua ub uc ud ue r u

end Cert.KernelIdeal.Block

end
-- ==== Proof.KernelArray.lean ====
/-
  From the kernel's blocks to its result array.

  Grid point `t` of 128 reads rows [8192 t, 8192 t + 8192) of the input matrix and writes the same rows of the
  [1048576, 1] result; every weight window holds its whole array at every point. The weight arrays the region
  finds are the pieces the host cut from Wm, Wu and Wr beforehand. So what point `t` writes back is block `t` of
  `G` of the arguments; the 128 blocks tile the result array (row `i` lies in block `i / 8192`), and after the
  run the whole array is `G`.
-/
import proofs.«121907_j79104707658373_1_alg».proof.Proof.BlockValue
import proofs.«121907_j79104707658373_1_alg».proof.Proof.Gen.KernelIdeal.Value
import Idealize.ShloMosaic.Lib.StableHlo.Run

set_option maxRecDepth 16384

noncomputable section

namespace Cert.KernelIdeal.ArrayValue

open Cert.KernelIdeal Cert.KernelIdeal.Gen Cert.KernelIdeal.Value Cert.KernelIdeal.Block Idealize.ShloMosaic Idealize.ShloMosaic.TcCoe
  Idealize.SL.Sem Idealize.ShloMosaic.ValueIdx Idealize.ShloMosaic.StableHlo Cert.Net
open Idealize.ShloMosaic.Pipeline (Dat)

variable (m : (ℓ : Loc nD τ sig) → Buf (Elt Ideal) ℓ) (ρ : Dev nD → PrngReg)

/-! ## The weight arrays at region entry -/

/-- At region entry `main_v0` holds rows [0, 17) of `main_arg3`. -/
theorem V_main_v0 (c : Dev nD) : (V m c main_v0 : S17x17.Idx → EReal) = extractStridedSlice S17x17 ![0, 0] (m ((c : Thread nD τ).loc main_arg3)) slices_S34x17_S17x17_0_0 := by
  dsimp only [V, hostOps0]; after_results

/-- At region entry `main_v1` holds rows [17, 34) of `main_arg3`. -/
theorem V_main_v1 (c : Dev nD) : (V m c main_v1 : S17x17.Idx → EReal) = extractStridedSlice S17x17 ![17, 0] (m ((c : Thread nD τ).loc main_arg3)) slices_S34x17_S17x17_17_0 := by
  dsimp only [V, hostOps0]; after_results

/-- At region entry `main_v2` holds rows [0, 17) of `main_arg5`. -/
theorem V_main_v2 (c : Dev nD) : (V m c main_v2 : S17x17.Idx → EReal) = extractStridedSlice S17x17 ![0, 0] (m ((c : Thread nD τ).loc main_arg5)) slices_S68x17_S17x17_0_0 := by
  dsimp only [V, hostOps0]; after_results

/-- At region entry `main_v3` holds rows [17, 34) of `main_arg5`. -/
theorem V_main_v3 (c : Dev nD) : (V m c main_v3 : S17x17.Idx → EReal) = extractStridedSlice S17x17 ![17, 0] (m ((c : Thread nD τ).loc main_arg5)) slices_S68x17_S17x17_17_0 := by
  dsimp only [V, hostOps0]; after_results

/-- At region entry `main_v4` holds rows [34, 51) of `main_arg5`. -/
theorem V_main_v4 (c : Dev nD) : (V m c main_v4 : S17x17.Idx → EReal) = extractStridedSlice S17x17 ![34, 0] (m ((c : Thread nD τ).loc main_arg5)) slices_S68x17_S17x17_34_0 := by
  dsimp only [V, hostOps0]; after_results

/-- At region entry `main_v5` holds rows [51, 68) of `main_arg5`. -/
theorem V_main_v5 (c : Dev nD) : (V m c main_v5 : S17x17.Idx → EReal) = extractStridedSlice S17x17 ![51, 0] (m ((c : Thread nD τ).loc main_arg5)) slices_S68x17_S17x17_51_0 := by
  dsimp only [V, hostOps0]; after_results

/-- At region entry `main_v6` holds rows [0, 17) of `main_arg7`. -/
theorem V_main_v6 (c : Dev nD) : (V m c main_v6 : S17x1.Idx → EReal) = extractStridedSlice S17x1 ![0, 0] (m ((c : Thread nD τ).loc main_arg7)) slices_S85x1_S17x1_0_0 := by
  dsimp only [V, hostOps0]; after_results

/-- At region entry `main_v7` holds rows [17, 34) of `main_arg7`. -/
theorem V_main_v7 (c : Dev nD) : (V m c main_v7 : S17x1.Idx → EReal) = extractStridedSlice S17x1 ![17, 0] (m ((c : Thread nD τ).loc main_arg7)) slices_S85x1_S17x1_17_0 := by
  dsimp only [V, hostOps0]; after_results

/-- At region entry `main_v8` holds rows [34, 51) of `main_arg7`. -/
theorem V_main_v8 (c : Dev nD) : (V m c main_v8 : S17x1.Idx → EReal) = extractStridedSlice S17x1 ![34, 0] (m ((c : Thread nD τ).loc main_arg7)) slices_S85x1_S17x1_34_0 := by
  dsimp only [V, hostOps0]; after_results

/-- At region entry `main_v9` holds rows [51, 68) of `main_arg7`. -/
theorem V_main_v9 (c : Dev nD) : (V m c main_v9 : S17x1.Idx → EReal) = extractStridedSlice S17x1 ![51, 0] (m ((c : Thread nD τ).loc main_arg7)) slices_S85x1_S17x1_51_0 := by
  dsimp only [V, hostOps0]; after_results

/-- At region entry `main_v10` holds rows [68, 85) of `main_arg7`. -/
theorem V_main_v10 (c : Dev nD) : (V m c main_v10 : S17x1.Idx → EReal) = extractStridedSlice S17x1 ![68, 0] (m ((c : Thread nD τ).loc main_arg7)) slices_S85x1_S17x1_68_0 := by
  dsimp only [V, hostOps0]; after_results

/-! ## The index maps, decided over the 128 grid points -/

theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 1) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 1) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 1) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 2) = 0 ∧ win0_12.index t (1 : Fin 2) = 0 :=
  (by decide +kernel : ∀ t : Fin grid0.N, _)
theorem idx0_13 : ∀ t : Fin cfg0.N, win0_13.index t (0 : Fin 2) = 0 ∧ win0_13.index t (1 : Fin 2) = 0 :=
  (by decide +kernel : ∀ t : Fin grid0.N, _)
theorem idx0_14 : ∀ t : Fin cfg0.N, win0_14.index t (0 : Fin 2) = 0 ∧ win0_14.index t (1 : Fin 2) = 0 :=
  (by decide +kernel : ∀ t : Fin grid0.N, _)
theorem idx0_15 : ∀ t : Fin cfg0.N, win0_15.index t (0 : Fin 2) = 0 ∧ win0_15.index t (1 : Fin 2) = 0 :=
  (by decide +kernel : ∀ t : Fin grid0.N, _)
theorem idx0_16 : ∀ t : Fin cfg0.N, win0_16.index t (0 : Fin 1) = 0 :=
  (by decide +kernel : ∀ t : Fin grid0.N, _)
/-- The input and output windows move together along the batch, and stay inside the 128 blocks. -/
theorem idx_io : ∀ t : Fin cfg0.N, win0_0.index t (0 : Fin 2) = win0_17.index t (0 : Fin 2) ∧ win0_0.index t (1 : Fin 2) = 0
    ∧ win0_17.index t (1 : Fin 2) = 0 ∧ win0_17.index t (0 : Fin 2) ≤ 127 :=
  (by decide +kernel : ∀ t : Fin grid0.N, _)
/-- Every block of the result array is some point's. -/
theorem idx_onto : ∀ q : Fin 128, ∃ t : Fin cfg0.N, win0_17.index t = ![q.val, 0] :=
  (by decide +kernel : ∀ q : Fin 128, ∃ t : Fin grid0.N, win0_17.index t = ![q.val, 0])

/-! ## Each weight window's block is its whole array -/

theorem iblk_1 (c : Dev nD) (t : Fin cfg0.N) (y : S1x17.Idx) : iblk m c 1 t y = V m c main_arg1 y := by
  show V m c main_arg1 (((cfg0.win 1).blk t).view.emb y) = V m c main_arg1 y
  obtain ⟨e0, e1⟩ := idx0_1 t
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 17 + 1 * (y 1).val = (y 1).val; omega

theorem iblk_2 (c : Dev nD) (t : Fin cfg0.N) (y : S17.Idx) : iblk m c 2 t y = V m c main_arg2 y := by
  show V m c main_arg2 (((cfg0.win 2).blk t).view.emb y) = V m c main_arg2 y
  have e0 := idx0_2 t
  refine congrArg _ (funext fun a => Fin.ext ?_)
  match a with
  | ⟨0, _⟩ => show win0_2.index t (0 : Fin 1) * 17 + 1 * (y 0).val = (y 0).val; omega

theorem iblk_3 (c : Dev nD) (t : Fin cfg0.N) (y : S17x17.Idx) : iblk m c 3 t y = V m c main_v0 y := by
  show V m c main_v0 (((cfg0.win 3).blk t).view.emb y) = V m c main_v0 y
  obtain ⟨e0, e1⟩ := idx0_3 t
  refine congrArg _ (funext fun a => Fin.ext ?_)
  match a with
  | ⟨0, _⟩ => show win0_3.index t (0 : Fin 2) * 17 + 1 * (y 0).val = (y 0).val; omega
  | ⟨1, _⟩ => show win0_3.index t (1 : Fin 2) * 17 + 1 * (y 1).val = (y 1).val; omega

theorem iblk_4 (c : Dev nD) (t : Fin cfg0.N) (y : S17x17.Idx) : iblk m c 4 t y = V m c main_v1 y := by
  show V m c main_v1 (((cfg0.win 4).blk t).view.emb y) = V m c main_v1 y
  obtain ⟨e0, e1⟩ := idx0_4 t
  refine congrArg _ (funext fun a => Fin.ext ?_)
  match a with
  | ⟨0, _⟩ => show win0_4.index t (0 : Fin 2) * 17 + 1 * (y 0).val = (y 0).val; omega
  | ⟨1, _⟩ => show win0_4.index t (1 : Fin 2) * 17 + 1 * (y 1).val = (y 1).val; omega

theorem iblk_5 (c : Dev nD) (t : Fin cfg0.N) (y : S17.Idx) : iblk m c 5 t y = V m c main_arg4 y := by
  show V m c main_arg4 (((cfg0.win 5).blk t).view.emb y) = V m c main_arg4 y
  have e0 := idx0_5 t
  refine congrArg _ (funext fun a => Fin.ext ?_)
  match a with
  | ⟨0, _⟩ => show win0_5.index t (0 : Fin 1) * 17 + 1 * (y 0).val = (y 0).val; omega

theorem iblk_6 (c : Dev nD) (t : Fin cfg0.N) (y : S17x17.Idx) : iblk m c 6 t y = V m c main_v2 y := by
  show V m c main_v2 (((cfg0.win 6).blk t).view.emb y) = V m c main_v2 y
  obtain ⟨e0, e1⟩ := idx0_6 t
  refine congrArg _ (funext fun a => Fin.ext ?_)
  match a with
  | ⟨0, _⟩ => show win0_6.index t (0 : Fin 2) * 17 + 1 * (y 0).val = (y 0).val; omega
  | ⟨1, _⟩ => show win0_6.index t (1 : Fin 2) * 17 + 1 * (y 1).val = (y 1).val; omega

theorem iblk_7 (c : Dev nD) (t : Fin cfg0.N) (y : S17x17.Idx) : iblk m c 7 t y = V m c main_v3 y := by
  show V m c main_v3 (((cfg0.win 7).blk t).view.emb y) = V m c main_v3 y
  obtain ⟨e0, e1⟩ := idx0_7 t
  refine congrArg _ (funext fun a => Fin.ext ?_)
  match a with
  | ⟨0, _⟩ => show win0_7.index t (0 : Fin 2) * 17 + 1 * (y 0).val = (y 0).val; omega
  | ⟨1, _⟩ => show win0_7.index t (1 : Fin 2) * 17 + 1 * (y 1).val = (y 1).val; omega

theorem iblk_8 (c : Dev nD) (t : Fin cfg0.N) (y : S17x17.Idx) : iblk m c 8 t y = V m c main_v4 y := by
  show V m c main_v4 (((cfg0.win 8).blk t).view.emb y) = V m c main_v4 y
  obtain ⟨e0, e1⟩ := idx0_8 t
  refine congrArg _ (funext fun a => Fin.ext ?_)
  match a with
  | ⟨0, _⟩ => show win0_8.index t (0 : Fin 2) * 17 + 1 * (y 0).val = (y 0).val; omega
  | ⟨1, _⟩ => show win0_8.index t (1 : Fin 2) * 17 + 1 * (y 1).val = (y 1).val; omega

theorem iblk_9 (c : Dev nD) (t : Fin cfg0.N) (y : S17x17.Idx) : iblk m c 9 t y = V m c main_v5 y := by
  show V m c main_v5 (((cfg0.win 9).blk t).view.emb y) = V m c main_v5 y
  obtain ⟨e0, e1⟩ := idx0_9 t
  refine congrArg _ (funext fun a => Fin.ext ?_)
  match a with
  | ⟨0, _⟩ => show win0_9.index t (0 : Fin 2) * 17 + 1 * (y 0).val = (y 0).val; omega
  | ⟨1, _⟩ => show win0_9.index t (1 : Fin 2) * 17 + 1 * (y 1).val = (y 1).val; omega

theorem iblk_10 (c : Dev nD) (t : Fin cfg0.N) (y : S17.Idx) : iblk m c 10 t y = V m c main_arg6 y := by
  show V m c main_arg6 (((cfg0.win 10).blk t).view.emb y) = V m c main_arg6 y
  have e0 := idx0_10 t
  refine congrArg _ (funext fun a => Fin.ext ?_)
  match a with
  | ⟨0, _⟩ => show win0_10.index t (0 : Fin 1) * 17 + 1 * (y 0).val = (y 0).val; omega

theorem iblk_11 (c : Dev nD) (t : Fin cfg0.N) (y : S17x1.Idx) : iblk m c 11 t y = V m c main_v6 y := by
  show V m c main_v6 (((cfg0.win 11).blk t).view.emb y) = V m c main_v6 y
  obtain ⟨e0, e1⟩ := idx0_11 t
  refine congrArg _ (funext fun a => Fin.ext ?_)
  match a with
  | ⟨0, _⟩ => show win0_11.index t (0 : Fin 2) * 17 + 1 * (y 0).val = (y 0).val; omega
  | ⟨1, _⟩ => show win0_11.index t (1 : Fin 2) * 1 + 1 * (y 1).val = (y 1).val; omega

theorem iblk_12 (c : Dev nD) (t : Fin cfg0.N) (y : S17x1.Idx) : iblk m c 12 t y = V m c main_v7 y := by
  show V m c main_v7 (((cfg0.win 12).blk t).view.emb y) = V m c main_v7 y
  obtain ⟨e0, e1⟩ := idx0_12 t
  refine congrArg _ (funext fun a => Fin.ext ?_)
  match a with
  | ⟨0, _⟩ => show win0_12.index t (0 : Fin 2) * 17 + 1 * (y 0).val = (y 0).val; omega
  | ⟨1, _⟩ => show win0_12.index t (1 : Fin 2) * 1 + 1 * (y 1).val = (y 1).val; omega

theorem iblk_13 (c : Dev nD) (t : Fin cfg0.N) (y : S17x1.Idx) : iblk m c 13 t y = V m c main_v8 y := by
  show V m c main_v8 (((cfg0.win 13).blk t).view.emb y) = V m c main_v8 y
  obtain ⟨e0, e1⟩ := idx0_13 t
  refine congrArg _ (funext fun a => Fin.ext ?_)
  match a with
  | ⟨0, _⟩ => show win0_13.index t (0 : Fin 2) * 17 + 1 * (y 0).val = (y 0).val; omega
  | ⟨1, _⟩ => show win0_13.index t (1 : Fin 2) * 1 + 1 * (y 1).val = (y 1).val; omega

theorem iblk_14 (c : Dev nD) (t : Fin cfg0.N) (y : S17x1.Idx) : iblk m c 14 t y = V m c main_v9 y := by
  show V m c main_v9 (((cfg0.win 14).blk t).view.emb y) = V m c main_v9 y
  obtain ⟨e0, e1⟩ := idx0_14 t
  refine congrArg _ (funext fun a => Fin.ext ?_)
  match a with
  | ⟨0, _⟩ => show win0_14.index t (0 : Fin 2) * 17 + 1 * (y 0).val = (y 0).val; omega
  | ⟨1, _⟩ => show win0_14.index t (1 : Fin 2) * 1 + 1 * (y 1).val = (y 1).val; omega

theorem iblk_15 (c : Dev nD) (t : Fin cfg0.N) (y : S17x1.Idx) : iblk m c 15 t y = V m c main_v10 y := by
  show V m c main_v10 (((cfg0.win 15).blk t).view.emb y) = V m c main_v10 y
  obtain ⟨e0, e1⟩ := idx0_15 t
  refine congrArg _ (funext fun a => Fin.ext ?_)
  match a with
  | ⟨0, _⟩ => show win0_15.index t (0 : Fin 2) * 17 + 1 * (y 0).val = (y 0).val; omega
  | ⟨1, _⟩ => show win0_15.index t (1 : Fin 2) * 1 + 1 * (y 1).val = (y 1).val; omega

theorem iblk_16 (c : Dev nD) (t : Fin cfg0.N) (y : S1.Idx) : iblk m c 16 t y = V m c main_arg8 y := by
  show V m c main_arg8 (((cfg0.win 16).blk t).view.emb y) = V m c main_arg8 y
  have e0 := idx0_16 t
  refine congrArg _ (funext fun a => Fin.ext ?_)
  match a with
  | ⟨0, _⟩ => show win0_16.index t (0 : Fin 1) * 1 + 1 * (y 0).val = (y 0).val; omega

/-! ## What a point writes back -/

/-- Point `t` writes back block `t` of `G` of the argument arrays. -/
theorem flushed_eq (c : Dev nD) (t : Fin cfg0.N) :
    (dats m 0 c).flushed 17 t = ((cfg0.win 17).blk t).view.read (Elt Ideal) (G (m ((c : Thread nD τ).loc main_arg0)) (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) := by
  rw [flushed17]
  refine funext fun (j : S8192x1.Idx) => ?_
  obtain ⟨r, u, rfl⟩ : ∃ (r : Fin 8192) (u : Fin 1), j = ix2 r u := ⟨j 0, j 1, eq_ix2 j⟩
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r u) = (G (m ((c : Thread nD τ).loc main_arg0)) (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) (((cfg0.win 17).blk t).view.emb (ix2 r u))
  refine (out_rows (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r u).trans ?_
  have h1 : (iblk m c 1 t : S1x17.Idx → EReal) = (m ((c : Thread nD τ).loc main_arg1)) :=
    funext fun y => (iblk_1 m c t y).trans (congrFun (V_main_arg1 m c) y)
  have h2 : (iblk m c 2 t : S17.Idx → EReal) = (m ((c : Thread nD τ).loc main_arg2)) :=
    funext fun y => (iblk_2 m c t y).trans (congrFun (V_main_arg2 m c) y)
  have h3 : (iblk m c 3 t : S17x17.Idx → EReal) = (extractStridedSlice S17x17 ![0, 0] (m ((c : Thread nD τ).loc main_arg3)) slices_S34x17_S17x17_0_0) :=
    funext fun y => (iblk_3 m c t y).trans (congrFun (V_main_v0 m c) y)
  have h4 : (iblk m c 4 t : S17x17.Idx → EReal) = (extractStridedSlice S17x17 ![17, 0] (m ((c : Thread nD τ).loc main_arg3)) slices_S34x17_S17x17_17_0) :=
    funext fun y => (iblk_4 m c t y).trans (congrFun (V_main_v1 m c) y)
  have h5 : (iblk m c 5 t : S17.Idx → EReal) = (m ((c : Thread nD τ).loc main_arg4)) :=
    funext fun y => (iblk_5 m c t y).trans (congrFun (V_main_arg4 m c) y)
  have h6 : (iblk m c 6 t : S17x17.Idx → EReal) = (extractStridedSlice S17x17 ![0, 0] (m ((c : Thread nD τ).loc main_arg5)) slices_S68x17_S17x17_0_0) :=
    funext fun y => (iblk_6 m c t y).trans (congrFun (V_main_v2 m c) y)
  have h7 : (iblk m c 7 t : S17x17.Idx → EReal) = (extractStridedSlice S17x17 ![17, 0] (m ((c : Thread nD τ).loc main_arg5)) slices_S68x17_S17x17_17_0) :=
    funext fun y => (iblk_7 m c t y).trans (congrFun (V_main_v3 m c) y)
  have h8 : (iblk m c 8 t : S17x17.Idx → EReal) = (extractStridedSlice S17x17 ![34, 0] (m ((c : Thread nD τ).loc main_arg5)) slices_S68x17_S17x17_34_0) :=
    funext fun y => (iblk_8 m c t y).trans (congrFun (V_main_v4 m c) y)
  have h9 : (iblk m c 9 t : S17x17.Idx → EReal) = (extractStridedSlice S17x17 ![51, 0] (m ((c : Thread nD τ).loc main_arg5)) slices_S68x17_S17x17_51_0) :=
    funext fun y => (iblk_9 m c t y).trans (congrFun (V_main_v5 m c) y)
  have h10 : (iblk m c 10 t : S17.Idx → EReal) = (m ((c : Thread nD τ).loc main_arg6)) :=
    funext fun y => (iblk_10 m c t y).trans (congrFun (V_main_arg6 m c) y)
  have h11 : (iblk m c 11 t : S17x1.Idx → EReal) = (extractStridedSlice S17x1 ![0, 0] (m ((c : Thread nD τ).loc main_arg7)) slices_S85x1_S17x1_0_0) :=
    funext fun y => (iblk_11 m c t y).trans (congrFun (V_main_v6 m c) y)
  have h12 : (iblk m c 12 t : S17x1.Idx → EReal) = (extractStridedSlice S17x1 ![17, 0] (m ((c : Thread nD τ).loc main_arg7)) slices_S85x1_S17x1_17_0) :=
    funext fun y => (iblk_12 m c t y).trans (congrFun (V_main_v7 m c) y)
  have h13 : (iblk m c 13 t : S17x1.Idx → EReal) = (extractStridedSlice S17x1 ![34, 0] (m ((c : Thread nD τ).loc main_arg7)) slices_S85x1_S17x1_34_0) :=
    funext fun y => (iblk_13 m c t y).trans (congrFun (V_main_v8 m c) y)
  have h14 : (iblk m c 14 t : S17x1.Idx → EReal) = (extractStridedSlice S17x1 ![51, 0] (m ((c : Thread nD τ).loc main_arg7)) slices_S85x1_S17x1_51_0) :=
    funext fun y => (iblk_14 m c t y).trans (congrFun (V_main_v9 m c) y)
  have h15 : (iblk m c 15 t : S17x1.Idx → EReal) = (extractStridedSlice S17x1 ![68, 0] (m ((c : Thread nD τ).loc main_arg7)) slices_S85x1_S17x1_68_0) :=
    funext fun y => (iblk_15 m c t y).trans (congrFun (V_main_v10 m c) y)
  have h16 : (iblk m c 16 t : S1.Idx → EReal) = (m ((c : Thread nD τ).loc main_arg8)) :=
    funext fun y => (iblk_16 m c t y).trans (congrFun (V_main_arg8 m c) y)
  have hx : (fun c' : Fin 5 => iblk m c 0 t (ix2 r c')) = fun c' => (m ((c : Thread nD τ).loc main_arg0)) (ix2 ((((cfg0.win 17).blk t).view.emb (ix2 r u)) 0) c') := by
    funext c'
    show V m c main_arg0 (((cfg0.win 0).blk t).view.emb (ix2 r c')) = _
    rw [V_main_arg0]
    obtain ⟨e0, e1, e2, e3⟩ := idx_io t
    refine congrArg _ (funext fun a => Fin.ext ?_)
    match a with
    | ⟨0, _⟩ => show win0_0.index t (0 : Fin 2) * 8192 + 1 * r.val = win0_17.index t (0 : Fin 2) * 8192 + 1 * r.val; omega
    | ⟨1, _⟩ => show win0_0.index t (1 : Fin 2) * 5 + 1 * c'.val = c'.val; omega
  rw [h1, h2, h3, h4, h5, h6, h7, h8, h9, h10, h11, h12, h13, h14, h15, h16, hx, paramsOfPieces_slices]
  rfl

/-! ## The cover -/

/-- An index of the result array is in point `t`'s block iff each coordinate is in the block's range. -/
theorem mem_blk (t : Fin cfg0.N) (i : S1048576x1.Idx) :
    i ∈ ((cfg0.win 17).blk t).view.set ↔ ∀ a : Fin 2, win0_17.index t a * S8192x1.size a ≤ (i a).val ∧ (i a).val < win0_17.index t a * S8192x1.size a + S8192x1.size a := by
  show i ∈ ((View.whole main_v11).slice (win0_17.rect t)).set ↔ _
  rw [View.set_slice_whole, Rect.mem_set_unit]
  exact Iff.rfl

/-- Row `i` of the result lies in the block of point `i / 8192`. -/
theorem cover (i : S1048576x1.Idx) : ∃ t : Fin cfg0.N, (cfg0.win 17).flush t = true ∧ i ∈ ((cfg0.win 17).blk t).view.set := by
  have hi0 : (i 0).val < 1048576 := (i 0).isLt
  have hi1 : (i 1).val < 1 := (i 1).isLt
  obtain ⟨t, ht⟩ := idx_onto ⟨(i 0).val / 8192, by omega⟩
  have q0 : win0_17.index t (0 : Fin 2) = (i 0).val / 8192 := congrFun ht 0
  have q1 : win0_17.index t (1 : Fin 2) = 0 := congrFun ht 1
  refine ⟨t, flush0_17 t, ?_⟩
  rw [mem_blk]
  intro a
  match a with
  | ⟨0, _⟩ => show win0_17.index t (0 : Fin 2) * 8192 ≤ (i 0).val ∧ (i 0).val < win0_17.index t (0 : Fin 2) * 8192 + 8192; omega
  | ⟨1, _⟩ => show win0_17.index t (1 : Fin 2) * 1 ≤ (i 1).val ∧ (i 1).val < win0_17.index t (1 : Fin 2) * 1 + 1; omega

/-! ## The array after the run, and the run -/

/-- After the run the result array is `G` of the argument arrays. -/
theorem final (c : Dev nD) : (dats m 0 c).arrAt 17 cfg0.N = (G (m ((c : Thread nD τ).loc main_arg0)) (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) :=
  (dats m 0 c).arrAt_eq_of_cover 17 _ (fun t _ => flushed_eq m c t) (cover)

/-- Every weakly fair execution of the idealized kernel ends with the result array at `G` of the arguments and
    the arguments unchanged. -/
theorem run : θ_run defs (onTc (τ := τ) (main (F := Ideal))) ⟨m, fun _ => 0, ρ⟩ fun r => ∀ c : Dev nD,
      r.2.mem ((c : Thread nD τ).loc main_v11) = (G (m ((c : Thread nD τ).loc main_arg0)) (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.ArrayValue

end
-- ==== Proof.HostOps.lean ====
/-
  The reference's array operations on the whole batch of 1048576 rows, read at an entry.

  A host product of a [B, 17] array with a [17, 17] (or [17, 1]) block is, at entry `(r, j)`, the sum over the
  17 hidden units `k` of `P (r, k) · W (k, j)`. The feature tensor [B, 5, 17] is built from the input matrix
  laid along the hidden units, and the weight and bias rows laid along the batch and the five columns; its
  column `c`, taken out as a [B, 1, 17] slice and flattened to [B, 17], reads at `(r, j)` the tensor at
  `(r, c, j)`. A bias of 17 laid along the batch reads entry `j` at every row.
-/
import proofs.«121907_j79104707658373_1_alg».proof.ReferenceIdeal
import proofs.«121907_j79104707658373_1_alg».proof.Proof.Gen.ReferenceIdeal
import Idealize.ShloMosaic.PureOps.Ideal.Laws
import Idealize.ShloMosaic.Lib.ValueIdx
import Idealize.ShloMosaic.Lib.ValueLayout

noncomputable section

namespace Cert.ReferenceIdeal.Batch

open Cert.ReferenceIdeal Cert.ReferenceIdeal.Facts₀ Idealize.ShloMosaic Idealize.ShloMosaic.ValueIdx

/-! ## The [B, 17] × [17, 17] product -/

theorem lhs_sq_0 (i : S1048576x17.Idx) (q : dot_S1048576x17_S17x17_S1048576x17_1_0_0_1_n_n.contr.Idx) :
    (dot_S1048576x17_S17x17_S1048576x17_1_0_0_1_n_n.lhsIdx i q 0).val = (i 0).val := by
  unfold DotDims.lhsIdx
  rw [dif_neg (show ¬(0 : Fin S1048576x17.rank) ∈ dot_S1048576x17_S17x17_S1048576x17_1_0_0_1_n_n.lhsBatch by decide),
    dif_pos (show (0 : Fin S1048576x17.rank) ∈ dot_S1048576x17_S17x17_S1048576x17_1_0_0_1_n_n.lhsNonContracting by decide)]
  rfl

theorem lhs_sq_1 (i : S1048576x17.Idx) (q : dot_S1048576x17_S17x17_S1048576x17_1_0_0_1_n_n.contr.Idx) :
    (dot_S1048576x17_S17x17_S1048576x17_1_0_0_1_n_n.lhsIdx i q 1).val = (q ⟨0, by decide⟩).val :=
  dot_S1048576x17_S17x17_S1048576x17_1_0_0_1_n_n.lhsIdx_val_of_single rfl i q

theorem rhs_sq_0 (i : S1048576x17.Idx) (q : dot_S1048576x17_S17x17_S1048576x17_1_0_0_1_n_n.contr.Idx) :
    (dot_S1048576x17_S17x17_S1048576x17_1_0_0_1_n_n.rhsIdx i q 0).val = (q ⟨0, by decide⟩).val :=
  dot_S1048576x17_S17x17_S1048576x17_1_0_0_1_n_n.rhsIdx_val_of_single rfl i q

theorem rhs_sq_1 (i : S1048576x17.Idx) (q : dot_S1048576x17_S17x17_S1048576x17_1_0_0_1_n_n.contr.Idx) :
    (dot_S1048576x17_S17x17_S1048576x17_1_0_0_1_n_n.rhsIdx i q 1).val = (i 1).val := by
  unfold DotDims.rhsIdx
  rw [dif_neg (show ¬(1 : Fin S17x17.rank) ∈ dot_S1048576x17_S17x17_S1048576x17_1_0_0_1_n_n.rhsBatch by decide),
    dif_pos (show (1 : Fin S17x17.rank) ∈ dot_S1048576x17_S17x17_S1048576x17_1_0_0_1_n_n.rhsNonContracting by decide)]
  rfl

/-- Entry `(r, j)` of the batch times a square weight block. -/
theorem dot_sq {φ₁ φ₂ : FTy} (P : FVec Ideal S1048576x17 φ₁) (W : FVec Ideal S17x17 φ₂) (r : Fin 1048576) (j : Fin 17) :
    Host.dotGeneral dot_S1048576x17_S17x17_S1048576x17_1_0_0_1_n_n none P W (ix2 r j)
      = ∑ k : Fin 17, P (ix2 r k) * W (ix2 k j) := by
  simp only [Host.dotGeneral]
  rw [Ideal.dotGeneral_apply,
    ← Equiv.sum_comp (contrEquiv1 dot_S1048576x17_S17x17_S1048576x17_1_0_0_1_n_n 17 rfl rfl).symm]
  refine Finset.sum_congr rfl fun k _ => ?_
  have hk := contrEquiv1_symm_val dot_S1048576x17_S17x17_S1048576x17_1_0_0_1_n_n 17 rfl rfl k
  have el : dot_S1048576x17_S17x17_S1048576x17_1_0_0_1_n_n.lhsIdx (ix2 r j)
      ((contrEquiv1 dot_S1048576x17_S17x17_S1048576x17_1_0_0_1_n_n 17 rfl rfl).symm k) = ix2 r k :=
    funext fun a => Fin.ext (by
      match a with
      | ⟨0, _⟩ => exact lhs_sq_0 _ _
      | ⟨1, _⟩ => exact (lhs_sq_1 _ _).trans hk)
  have er : dot_S1048576x17_S17x17_S1048576x17_1_0_0_1_n_n.rhsIdx (ix2 r j)
      ((contrEquiv1 dot_S1048576x17_S17x17_S1048576x17_1_0_0_1_n_n 17 rfl rfl).symm k) = ix2 k j :=
    funext fun a => Fin.ext (by
      match a with
      | ⟨0, _⟩ => exact (rhs_sq_0 _ _).trans hk
      | ⟨1, _⟩ => exact rhs_sq_1 _ _)
  rw [el, er]

/-! ## The [B, 17] × [17, 1] product -/

theorem lhs_col_0 (i : S1048576x1.Idx) (q : dot_S1048576x17_S17x1_S1048576x1_1_0_0_1_n_n.contr.Idx) :
    (dot_S1048576x17_S17x1_S1048576x1_1_0_0_1_n_n.lhsIdx i q 0).val = (i 0).val := by
  unfold DotDims.lhsIdx
  rw [dif_neg (show ¬(0 : Fin S1048576x17.rank) ∈ dot_S1048576x17_S17x1_S1048576x1_1_0_0_1_n_n.lhsBatch by decide),
    dif_pos (show (0 : Fin S1048576x17.rank) ∈ dot_S1048576x17_S17x1_S1048576x1_1_0_0_1_n_n.lhsNonContracting by decide)]
  rfl

theorem lhs_col_1 (i : S1048576x1.Idx) (q : dot_S1048576x17_S17x1_S1048576x1_1_0_0_1_n_n.contr.Idx) :
    (dot_S1048576x17_S17x1_S1048576x1_1_0_0_1_n_n.lhsIdx i q 1).val = (q ⟨0, by decide⟩).val :=
  dot_S1048576x17_S17x1_S1048576x1_1_0_0_1_n_n.lhsIdx_val_of_single rfl i q

theorem rhs_col_0 (i : S1048576x1.Idx) (q : dot_S1048576x17_S17x1_S1048576x1_1_0_0_1_n_n.contr.Idx) :
    (dot_S1048576x17_S17x1_S1048576x1_1_0_0_1_n_n.rhsIdx i q 0).val = (q ⟨0, by decide⟩).val :=
  dot_S1048576x17_S17x1_S1048576x1_1_0_0_1_n_n.rhsIdx_val_of_single rfl i q

theorem rhs_col_1 (i : S1048576x1.Idx) (q : dot_S1048576x17_S17x1_S1048576x1_1_0_0_1_n_n.contr.Idx) :
    (dot_S1048576x17_S17x1_S1048576x1_1_0_0_1_n_n.rhsIdx i q 1).val = (i 1).val := by
  unfold DotDims.rhsIdx
  rw [dif_neg (show ¬(1 : Fin S17x1.rank) ∈ dot_S1048576x17_S17x1_S1048576x1_1_0_0_1_n_n.rhsBatch by decide),
    dif_pos (show (1 : Fin S17x1.rank) ∈ dot_S1048576x17_S17x1_S1048576x1_1_0_0_1_n_n.rhsNonContracting by decide)]
  rfl

/-- Entry `(r, 0)` of the batch times a weight column. -/
theorem dot_col {φ₁ φ₂ : FTy} (P : FVec Ideal S1048576x17 φ₁) (W : FVec Ideal S17x1 φ₂) (r : Fin 1048576) (u : Fin 1) :
    Host.dotGeneral dot_S1048576x17_S17x1_S1048576x1_1_0_0_1_n_n none P W (ix2 r u)
      = ∑ k : Fin 17, P (ix2 r k) * W (ix2 k u) := by
  simp only [Host.dotGeneral]
  rw [Ideal.dotGeneral_apply,
    ← Equiv.sum_comp (contrEquiv1 dot_S1048576x17_S17x1_S1048576x1_1_0_0_1_n_n 17 rfl rfl).symm]
  refine Finset.sum_congr rfl fun k _ => ?_
  have hk := contrEquiv1_symm_val dot_S1048576x17_S17x1_S1048576x1_1_0_0_1_n_n 17 rfl rfl k
  have el : dot_S1048576x17_S17x1_S1048576x1_1_0_0_1_n_n.lhsIdx (ix2 r u)
      ((contrEquiv1 dot_S1048576x17_S17x1_S1048576x1_1_0_0_1_n_n 17 rfl rfl).symm k) = ix2 r k :=
    funext fun a => Fin.ext (by
      match a with
      | ⟨0, _⟩ => exact lhs_col_0 _ _
      | ⟨1, _⟩ => exact (lhs_col_1 _ _).trans hk)
  have er : dot_S1048576x17_S17x1_S1048576x1_1_0_0_1_n_n.rhsIdx (ix2 r u)
      ((contrEquiv1 dot_S1048576x17_S17x1_S1048576x1_1_0_0_1_n_n 17 rfl rfl).symm k) = ix2 k u :=
    funext fun a => Fin.ext (by
      match a with
      | ⟨0, _⟩ => exact (rhs_col_0 _ _).trans hk
      | ⟨1, _⟩ => exact rhs_col_1 _ _)
  rw [el, er]

/-! ## Broadcasts, the zero block, and the feature tensor -/

variable {α : Type}

/-- A vector of 17 laid along every row of the batch. -/
theorem bias_rows (b : S17.Idx → α) (r : Fin 1048576) (j : Fin 17) :
    broadcastInDim S1048576x17 ![0, 1] bcast_S1x17_S1048576x17_0_1 (broadcastInDim S1x17 ![1] bcast_S17_S1x17_1 b) (ix2 r j)
      = b (ix1 j) := by
  refine (broadcastInDim_apply _ _ _ (ix2 r j) (ix2 (0 : Fin 1) j) fun ax => ?_).trans
    (broadcastInDim_apply _ _ b (ix2 (0 : Fin 1) j) (ix1 j) fun ax => ?_)
  · match ax with
    | ⟨0, _⟩ => rfl
    | ⟨1, _⟩ => rfl
  · match ax with
    | ⟨0, _⟩ => rfl

/-- The one-entry bias laid along the rows of the result column. -/
theorem bias_one (b : S1.Idx → α) (r : Fin 1048576) (u : Fin 1) :
    broadcastInDim S1048576x1 ![0, 1] bcast_S1x1_S1048576x1_0_1 (broadcastInDim S1x1 ![1] bcast_S1_S1x1_1 b) (ix2 r u)
      = b (ix1 (0 : Fin 1)) := by
  refine (broadcastInDim_apply _ _ _ (ix2 r u) (ix2 (0 : Fin 1) (0 : Fin 1)) fun ax => ?_).trans
    (broadcastInDim_apply _ _ b (ix2 (0 : Fin 1) (0 : Fin 1)) (ix1 (0 : Fin 1)) fun ax => ?_)
  · match ax with
    | ⟨0, _⟩ => rfl
    | ⟨1, _⟩ => rfl
  · match ax with
    | ⟨0, _⟩ => rfl

/-- The zero block: the scalar constant zero laid over the whole [B, 17] array. -/
theorem zero_rows (i : S1048576x17.Idx) :
    broadcastInDim S1048576x17 ![] bcast_S_S1048576x17 (constant (F := Ideal) S_ .f32 0x00000000#32) i = (0 : EReal) := by
  refine (broadcastInDim_apply _ _ _ i ix0 fun ax => ax.elim0).trans ?_
  exact Ideal.ofBits_zero_f32

/-- The input matrix laid along the hidden units. -/
theorem x_cube (X : S1048576x5.Idx → α) (r : Fin 1048576) (c : Fin 5) (j : Fin 17) :
    broadcastInDim S1048576x5x17 ![0, 1, 2] bcast_S1048576x5x1_S1048576x5x17_0_1_2
      (broadcastInDim S1048576x5x1 ![0, 1] bcast_S1048576x5_S1048576x5x1_0_1 X) (ix3 r c j) = X (ix2 r c) := by
  refine (broadcastInDim_apply _ _ _ (ix3 r c j) (ix3 r c (0 : Fin 1)) fun ax => ?_).trans
    (broadcastInDim_apply _ _ X (ix3 r c (0 : Fin 1)) (ix2 r c) fun ax => ?_)
  · match ax with
    | ⟨0, _⟩ => rfl
    | ⟨1, _⟩ => rfl
    | ⟨2, _⟩ => rfl
  · match ax with
    | ⟨0, _⟩ => rfl
    | ⟨1, _⟩ => rfl

/-- A vector of 17 laid along the batch and the five columns. -/
theorem v_cube (b : S17.Idx → α) (r : Fin 1048576) (c : Fin 5) (j : Fin 17) :
    broadcastInDim S1048576x5x17 ![0, 1, 2] bcast_S1x1x17_S1048576x5x17_0_1_2
      (broadcastInDim S1x1x17 ![2] bcast_S17_S1x1x17_2 b) (ix3 r c j) = b (ix1 j) := by
  refine (broadcastInDim_apply _ _ _ (ix3 r c j) (ix3 (0 : Fin 1) (0 : Fin 1) j) fun ax => ?_).trans
    (broadcastInDim_apply _ _ b (ix3 (0 : Fin 1) (0 : Fin 1) j) (ix1 j) fun ax => ?_)
  · match ax with
    | ⟨0, _⟩ => rfl
    | ⟨1, _⟩ => rfl
    | ⟨2, _⟩ => rfl
  · match ax with
    | ⟨0, _⟩ => rfl

/-- The [1, 17] weight row, flattened, laid along the batch and the five columns. -/
theorem w_cube (w : S1x17.Idx → α) (r : Fin 1048576) (c : Fin 5) (j : Fin 17) :
    broadcastInDim S1048576x5x17 ![0, 1, 2] bcast_S1x1x17_S1048576x5x17_0_1_2
      (broadcastInDim S1x1x17 ![2] bcast_S17_S1x1x17_2 (shapeCast S17 w shapeCasts_S1x17_S17)) (ix3 r c j)
      = w (ix2 (0 : Fin 1) j) :=
  (v_cube _ r c j).trans (shapeCast_1a_a_apply w _ j)

/-- Column `c` of a [B, 5, 17] tensor, sliced out and flattened to [B, 17]. -/
theorem pick_column (o : Nat) (T : S1048576x5x17.Idx → α) (h : S1048576x5x17.Slices ![0, o, 0] S1048576x1x17)
    (c : Fin 5) (hc : c.val = o) (r : Fin 1048576) (j : Fin 17) :
    shapeCast S1048576x17 (extractStridedSlice S1048576x1x17 ![0, o, 0] T h) shapeCasts_S1048576x1x17_S1048576x17 (ix2 r j)
      = T (ix3 r c j) := by
  refine (shapeCast_apply _ _ (ix2 r j) (ix3 r (0 : Fin 1) j) ?_).trans
    (slice3_axis1_apply o T h r (0 : Fin 1) j c (by rw [hc]; rfl))
  rw [Shape.rowMajor_val_three, Shape.rowMajor_val_two]
  show (r.val * 1 + 0) * 17 + j.val = r.val * 17 + j.val
  omega

end Cert.ReferenceIdeal.Batch

end
-- ==== Proof.HostLayers.lean ====
/-
  The reference's layers on the whole batch, row by row.

  Read at entry `(r, j)`, each array expression of the reference is the corresponding layer of the network
  applied to row `r` of its operands, exactly as for the kernel's blocks: the host's tanh, sum and product
  are the same functions of extended reals as the kernel's. The feature tensor holds all five features of a
  row side by side; feature `c` is its column `c`.
-/
import proofs.«121907_j79104707658373_1_alg».proof.Proof.HostOps
import proofs.«121907_j79104707658373_1_alg».proof.Proof.WeightBlocks

noncomputable section

namespace Cert.ReferenceIdeal.Batch

open Cert.ReferenceIdeal Cert.ReferenceIdeal.Facts₀ Idealize.ShloMosaic Idealize.ShloMosaic.ValueIdx Cert.Net

/-- The host's elementwise hyperbolic tangent of an array, at an entry. -/
theorem htanh_at {s : Shape} {φ : FTy} (v : FVec Ideal s φ) (i : s.Idx) : Host.tanh v i = Ideal.tanh (v i) := rfl

/-- The feature tensor at `(r, c, j)`: the feature layer on the scalar `X (r, c)`. -/
theorem feat_cube (X : FVec Ideal S1048576x5 .f32) (Wf : FVec Ideal S1x17 .f32) (bf : FVec Ideal S17 .f32)
    (r : Fin 1048576) (c : Fin 5) (j : Fin 17) :
    (Host.tanh (addf (mulf (broadcastInDim S1048576x5x17 ![0, 1, 2] bcast_S1048576x5x1_S1048576x5x17_0_1_2 (broadcastInDim S1048576x5x1 ![0, 1] bcast_S1048576x5_S1048576x5x1_0_1 X)) (broadcastInDim S1048576x5x17 ![0, 1, 2] bcast_S1x1x17_S1048576x5x17_0_1_2 (broadcastInDim S1x1x17 ![2] bcast_S17_S1x1x17_2 (shapeCast S17 Wf shapeCasts_S1x17_S17)))) (broadcastInDim S1048576x5x17 ![0, 1, 2] bcast_S1x1x17_S1048576x5x17_0_1_2 (broadcastInDim S1x1x17 ![2] bcast_S17_S1x1x17_2 bf)))) (ix3 r c j)
      = feat (fun j => Wf (ix2 (0 : Fin 1) j)) (vec bf) (X (ix2 r c)) j := by
  unfold feat
  rw [htanh_at, addf_apply, mulf_apply, x_cube, w_cube, v_cube]

/-- Feature `c` as a [B, 17] array: column `c` of the feature tensor, flattened. -/
theorem feat_rows (X : FVec Ideal S1048576x5 .f32) (Wf : FVec Ideal S1x17 .f32) (bf : FVec Ideal S17 .f32)
    (o : Nat) (h : S1048576x5x17.Slices ![0, o, 0] S1048576x1x17) (c : Fin 5) (hc : c.val = o) (r : Fin 1048576) (j : Fin 17) :
    shapeCast S1048576x17 (extractStridedSlice S1048576x1x17 ![0, o, 0] (Host.tanh (addf (mulf (broadcastInDim S1048576x5x17 ![0, 1, 2] bcast_S1048576x5x1_S1048576x5x17_0_1_2 (broadcastInDim S1048576x5x1 ![0, 1] bcast_S1048576x5_S1048576x5x1_0_1 X)) (broadcastInDim S1048576x5x17 ![0, 1, 2] bcast_S1x1x17_S1048576x5x17_0_1_2 (broadcastInDim S1x1x17 ![2] bcast_S17_S1x1x17_2 (shapeCast S17 Wf shapeCasts_S1x17_S17)))) (broadcastInDim S1048576x5x17 ![0, 1, 2] bcast_S1x1x17_S1048576x5x17_0_1_2 (broadcastInDim S1x1x17 ![2] bcast_S17_S1x1x17_2 bf)))) h) shapeCasts_S1048576x1x17_S1048576x17 (ix2 r j)
      = feat (fun j => Wf (ix2 (0 : Fin 1) j)) (vec bf) (X (ix2 r c)) j :=
  (pick_column o _ h c hc r j).trans (feat_cube X Wf bf r c j)

/-- A message: two products, the bias, tanh. -/
theorem msg_core {P Q : FVec Ideal S1048576x17 .f32} {p q : Fin 1048576 → Row} (W1 W2 : FVec Ideal S17x17 .f32) (b : FVec Ideal S17 .f32)
    (hP : ∀ r k, P (ix2 r k) = p r k) (hQ : ∀ r k, Q (ix2 r k) = q r k) (r : Fin 1048576) (j : Fin 17) :
    Host.tanh (addf (addf (Host.dotGeneral dot_S1048576x17_S17x17_S1048576x17_1_0_0_1_n_n none P W1) (Host.dotGeneral dot_S1048576x17_S17x17_S1048576x17_1_0_0_1_n_n none Q W2)) (broadcastInDim S1048576x17 ![0, 1] bcast_S1x17_S1048576x17_0_1 (broadcastInDim S1x17 ![1] bcast_S17_S1x17_1 b))) (ix2 r j)
      = msg (blk W1) (blk W2) (vec b) (p r) (q r) j := by
  unfold msg lin
  rw [htanh_at, addf_apply, addf_apply, dot_sq, dot_sq, bias_rows]
  simp only [hP, hQ]

/-- An update: four products, the bias, tanh. -/
theorem upd_core {M1 M2 Fv : FVec Ideal S1048576x17 .f32} {m1 m2 f : Fin 1048576 → Row} (W1 W2 W3 W4 : FVec Ideal S17x17 .f32)
    (b : FVec Ideal S17 .f32) (h1 : ∀ r k, M1 (ix2 r k) = m1 r k) (h2 : ∀ r k, M2 (ix2 r k) = m2 r k)
    (hf : ∀ r k, Fv (ix2 r k) = f r k) (r : Fin 1048576) (j : Fin 17) :
    Host.tanh (addf (addf (addf (addf (Host.dotGeneral dot_S1048576x17_S17x17_S1048576x17_1_0_0_1_n_n none M1 W1) (Host.dotGeneral dot_S1048576x17_S17x17_S1048576x17_1_0_0_1_n_n none M2 W2)) (Host.dotGeneral dot_S1048576x17_S17x17_S1048576x17_1_0_0_1_n_n none Fv W3)) (Host.dotGeneral dot_S1048576x17_S17x17_S1048576x17_1_0_0_1_n_n none Fv W4)) (broadcastInDim S1048576x17 ![0, 1] bcast_S1x17_S1048576x17_0_1 (broadcastInDim S1x17 ![1] bcast_S17_S1x17_1 b))) (ix2 r j)
      = upd (blk W1) (blk W2) (blk W3) (blk W4) (vec b) (m1 r) (m2 r) (f r) j := by
  unfold upd lin
  rw [htanh_at, addf_apply, addf_apply, addf_apply, addf_apply, dot_sq, dot_sq, dot_sq, dot_sq, bias_rows]
  simp only [h1, h2, hf]

/-- The zero block holds the zero row at every row. -/
theorem zero_block (r : Fin 1048576) (k : Fin 17) :
    broadcastInDim S1048576x17 ![] bcast_S_S1048576x17 (constant (F := Ideal) S_ .f32 0x00000000#32) (ix2 r k)
      = (fun (_ : Fin 1048576) (_ : Fin 17) => (0 : EReal)) r k :=
  zero_rows _

/-- The readout: five products with the weight columns, summed left to right, plus the one-entry bias. -/
theorem out_core {Ua Ub Uc Ud Ue : FVec Ideal S1048576x17 .f32} {ua ub uc ud ue : Fin 1048576 → Row}
    (w1 w2 w3 w4 w5 : FVec Ideal S17x1 .f32) (b : FVec Ideal S1 .f32)
    (ha : ∀ r k, Ua (ix2 r k) = ua r k) (hb : ∀ r k, Ub (ix2 r k) = ub r k) (hc : ∀ r k, Uc (ix2 r k) = uc r k)
    (hd : ∀ r k, Ud (ix2 r k) = ud r k) (he : ∀ r k, Ue (ix2 r k) = ue r k) (r : Fin 1048576) (u : Fin 1) :
    addf (addf (addf (addf (addf (Host.dotGeneral dot_S1048576x17_S17x1_S1048576x1_1_0_0_1_n_n none Ua w1) (Host.dotGeneral dot_S1048576x17_S17x1_S1048576x1_1_0_0_1_n_n none Ub w2)) (Host.dotGeneral dot_S1048576x17_S17x1_S1048576x1_1_0_0_1_n_n none Uc w3)) (Host.dotGeneral dot_S1048576x17_S17x1_S1048576x1_1_0_0_1_n_n none Ud w4)) (Host.dotGeneral dot_S1048576x17_S17x1_S1048576x1_1_0_0_1_n_n none Ue w5))
        (broadcastInDim S1048576x1 ![0, 1] bcast_S1x1_S1048576x1_0_1 (broadcastInDim S1x1 ![1] bcast_S1_S1x1_1 b)) (ix2 r u)
      = dot (ua r) (col w1) + dot (ub r) (col w2) + dot (uc r) (col w3) + dot (ud r) (col w4) + dot (ue r) (col w5)
        + b (ix1 (0 : Fin 1)) := by
  have hu : u = 0 := Fin.ext (by have := u.isLt; omega)
  subst hu
  unfold dot
  rw [addf_apply, addf_apply, addf_apply, addf_apply, addf_apply, dot_col, dot_col, dot_col, dot_col, dot_col, bias_one]
  simp only [ha, hb, hc, hd, he]

end Cert.ReferenceIdeal.Batch

end
-- ==== Proof.HostValue.lean ====
/-
  What the reference's run leaves in its result array.

  The run's result is the readout of five updated arrays over the whole batch. Feature `c` of the batch is
  column `c` of the feature tensor; the four cycle members' updates read their two messages and their own
  feature; the fifth feature's update reads the zero block in place of both messages, which makes it the
  message-free update. Entry `(r, 0)` of the result is therefore the network on row `r` of the input matrix,
  with the parameters cut out of the weight matrices: the whole array is `G` of the arguments.
-/
import proofs.«121907_j79104707658373_1_alg».proof.Proof.HostLayers
import proofs.«121907_j79104707658373_1_alg».proof.Proof.Gen.ReferenceIdeal.Run

set_option maxRecDepth 16384

noncomputable section

namespace Cert.ReferenceIdeal.Batch

open Cert.ReferenceIdeal Cert.ReferenceIdeal.Facts₀ Cert.ReferenceIdeal.Value Idealize.ShloMosaic Idealize.ShloMosaic.ValueIdx
  Idealize.ShloMosaic.StableHlo Cert.Net

variable (V0 : Valuation τ sig (Elt Ideal))

/-- The parameters the reference multiplies with: the pieces it cuts from the weight matrices. -/
abbrev θ : Params := (paramsOfPieces (V0 (Proc.devRef .tc main_arg1)) (V0 (Proc.devRef .tc main_arg2)) (extractStridedSlice S17x17 ![0, 0] (V0 (Proc.devRef .tc main_arg3)) slices_S34x17_S17x17_0_0) (extractStridedSlice S17x17 ![17, 0] (V0 (Proc.devRef .tc main_arg3)) slices_S34x17_S17x17_17_0) (V0 (Proc.devRef .tc main_arg4)) (extractStridedSlice S17x17 ![0, 0] (V0 (Proc.devRef .tc main_arg5)) slices_S68x17_S17x17_0_0) (extractStridedSlice S17x17 ![17, 0] (V0 (Proc.devRef .tc main_arg5)) slices_S68x17_S17x17_17_0) (extractStridedSlice S17x17 ![34, 0] (V0 (Proc.devRef .tc main_arg5)) slices_S68x17_S17x17_34_0) (extractStridedSlice S17x17 ![51, 0] (V0 (Proc.devRef .tc main_arg5)) slices_S68x17_S17x17_51_0) (V0 (Proc.devRef .tc main_arg6)) (extractStridedSlice S17x1 ![0, 0] (V0 (Proc.devRef .tc main_arg7)) slices_S85x1_S17x1_0_0) (extractStridedSlice S17x1 ![17, 0] (V0 (Proc.devRef .tc main_arg7)) slices_S85x1_S17x1_17_0) (extractStridedSlice S17x1 ![34, 0] (V0 (Proc.devRef .tc main_arg7)) slices_S85x1_S17x1_34_0) (extractStridedSlice S17x1 ![51, 0] (V0 (Proc.devRef .tc main_arg7)) slices_S85x1_S17x1_51_0) (extractStridedSlice S17x1 ![68, 0] (V0 (Proc.devRef .tc main_arg7)) slices_S85x1_S17x1_68_0) (V0 (Proc.devRef .tc main_arg8)))

/-- The result array, entry by entry. -/
theorem result_rows (r : Fin 1048576) (u : Fin 1) :
    val4 V0 (no_index (Proc.devRef .tc main_v184)) (ix2 r u) = net (θ V0) (fun c => (V0 (Proc.devRef .tc main_arg0)) (ix2 r c)) := by
  rw [val4_main_v184]
  unfold res_main_v178 res_main_v172
  have fa : ∀ r k, (res_main_v11 V0) (ix2 r k) = F (θ V0) (fun c => (V0 (Proc.devRef .tc main_arg0)) (ix2 r c)) 0 k :=
    fun r k => feat_rows (V0 (Proc.devRef .tc main_arg0)) (V0 (Proc.devRef .tc main_arg1)) (V0 (Proc.devRef .tc main_arg2)) 0 slices_S1048576x5x17_S1048576x1x17_0_0_0 0 rfl r k
  have fb : ∀ r k, (res_main_v13 V0) (ix2 r k) = F (θ V0) (fun c => (V0 (Proc.devRef .tc main_arg0)) (ix2 r c)) 1 k :=
    fun r k => feat_rows (V0 (Proc.devRef .tc main_arg0)) (V0 (Proc.devRef .tc main_arg1)) (V0 (Proc.devRef .tc main_arg2)) 1 slices_S1048576x5x17_S1048576x1x17_0_1_0 1 rfl r k
  have fc : ∀ r k, (res_main_v15 V0) (ix2 r k) = F (θ V0) (fun c => (V0 (Proc.devRef .tc main_arg0)) (ix2 r c)) 2 k :=
    fun r k => feat_rows (V0 (Proc.devRef .tc main_arg0)) (V0 (Proc.devRef .tc main_arg1)) (V0 (Proc.devRef .tc main_arg2)) 2 slices_S1048576x5x17_S1048576x1x17_0_2_0 2 rfl r k
  have fd : ∀ r k, (res_main_v17 V0) (ix2 r k) = F (θ V0) (fun c => (V0 (Proc.devRef .tc main_arg0)) (ix2 r c)) 3 k :=
    fun r k => feat_rows (V0 (Proc.devRef .tc main_arg0)) (V0 (Proc.devRef .tc main_arg1)) (V0 (Proc.devRef .tc main_arg2)) 3 slices_S1048576x5x17_S1048576x1x17_0_3_0 3 rfl r k
  have fe : ∀ r k, (res_main_v19 V0) (ix2 r k) = F (θ V0) (fun c => (V0 (Proc.devRef .tc main_arg0)) (ix2 r c)) 4 k :=
    fun r k => feat_rows (V0 (Proc.devRef .tc main_arg0)) (V0 (Proc.devRef .tc main_arg1)) (V0 (Proc.devRef .tc main_arg2)) 4 slices_S1048576x5x17_S1048576x1x17_0_4_0 4 rfl r k
  have hz : ∀ r k, (res_main_v92 V0) (ix2 r k) = (fun (_ : Fin 1048576) (_ : Fin 17) => (0 : EReal)) r k :=
    fun r k => zero_block r k
  have mab : ∀ r k, (Host.tanh (addf (addf (Host.dotGeneral dot_S1048576x17_S17x17_S1048576x17_1_0_0_1_n_n none (res_main_v11 V0) (extractStridedSlice S17x17 ![0, 0] (V0 (Proc.devRef .tc main_arg3)) slices_S34x17_S17x17_0_0)) (Host.dotGeneral dot_S1048576x17_S17x17_S1048576x17_1_0_0_1_n_n none (res_main_v13 V0) (extractStridedSlice S17x17 ![17, 0] (V0 (Proc.devRef .tc main_arg3)) slices_S34x17_S17x17_17_0))) (broadcastInDim S1048576x17 ![0, 1] bcast_S1x17_S1048576x17_0_1 (broadcastInDim S1x17 ![1] bcast_S17_S1x17_1 (V0 (Proc.devRef .tc main_arg4)))))) (ix2 r k) = M (θ V0) (fun c => (V0 (Proc.devRef .tc main_arg0)) (ix2 r c)) 0 1 k := fun r k => msg_core _ _ _ fa fb r k
  have mad : ∀ r k, (Host.tanh (addf (addf (Host.dotGeneral dot_S1048576x17_S17x17_S1048576x17_1_0_0_1_n_n none (res_main_v11 V0) (extractStridedSlice S17x17 ![0, 0] (V0 (Proc.devRef .tc main_arg3)) slices_S34x17_S17x17_0_0)) (Host.dotGeneral dot_S1048576x17_S17x17_S1048576x17_1_0_0_1_n_n none (res_main_v17 V0) (extractStridedSlice S17x17 ![17, 0] (V0 (Proc.devRef .tc main_arg3)) slices_S34x17_S17x17_17_0))) (broadcastInDim S1048576x17 ![0, 1] bcast_S1x17_S1048576x17_0_1 (broadcastInDim S1x17 ![1] bcast_S17_S1x17_1 (V0 (Proc.devRef .tc main_arg4)))))) (ix2 r k) = M (θ V0) (fun c => (V0 (Proc.devRef .tc main_arg0)) (ix2 r c)) 0 3 k := fun r k => msg_core _ _ _ fa fd r k
  have mba : ∀ r k, (Host.tanh (addf (addf (Host.dotGeneral dot_S1048576x17_S17x17_S1048576x17_1_0_0_1_n_n none (res_main_v13 V0) (extractStridedSlice S17x17 ![0, 0] (V0 (Proc.devRef .tc main_arg3)) slices_S34x17_S17x17_0_0)) (Host.dotGeneral dot_S1048576x17_S17x17_S1048576x17_1_0_0_1_n_n none (res_main_v11 V0) (extractStridedSlice S17x17 ![17, 0] (V0 (Proc.devRef .tc main_arg3)) slices_S34x17_S17x17_17_0))) (broadcastInDim S1048576x17 ![0, 1] bcast_S1x17_S1048576x17_0_1 (broadcastInDim S1x17 ![1] bcast_S17_S1x17_1 (V0 (Proc.devRef .tc main_arg4)))))) (ix2 r k) = M (θ V0) (fun c => (V0 (Proc.devRef .tc main_arg0)) (ix2 r c)) 1 0 k := fun r k => msg_core _ _ _ fb fa r k
  have mbc : ∀ r k, (Host.tanh (addf (addf (Host.dotGeneral dot_S1048576x17_S17x17_S1048576x17_1_0_0_1_n_n none (res_main_v13 V0) (extractStridedSlice S17x17 ![0, 0] (V0 (Proc.devRef .tc main_arg3)) slices_S34x17_S17x17_0_0)) (Host.dotGeneral dot_S1048576x17_S17x17_S1048576x17_1_0_0_1_n_n none (res_main_v15 V0) (extractStridedSlice S17x17 ![17, 0] (V0 (Proc.devRef .tc main_arg3)) slices_S34x17_S17x17_17_0))) (broadcastInDim S1048576x17 ![0, 1] bcast_S1x17_S1048576x17_0_1 (broadcastInDim S1x17 ![1] bcast_S17_S1x17_1 (V0 (Proc.devRef .tc main_arg4)))))) (ix2 r k) = M (θ V0) (fun c => (V0 (Proc.devRef .tc main_arg0)) (ix2 r c)) 1 2 k := fun r k => msg_core _ _ _ fb fc r k
  have mcb : ∀ r k, (Host.tanh (addf (addf (Host.dotGeneral dot_S1048576x17_S17x17_S1048576x17_1_0_0_1_n_n none (res_main_v15 V0) (extractStridedSlice S17x17 ![0, 0] (V0 (Proc.devRef .tc main_arg3)) slices_S34x17_S17x17_0_0)) (Host.dotGeneral dot_S1048576x17_S17x17_S1048576x17_1_0_0_1_n_n none (res_main_v13 V0) (extractStridedSlice S17x17 ![17, 0] (V0 (Proc.devRef .tc main_arg3)) slices_S34x17_S17x17_17_0))) (broadcastInDim S1048576x17 ![0, 1] bcast_S1x17_S1048576x17_0_1 (broadcastInDim S1x17 ![1] bcast_S17_S1x17_1 (V0 (Proc.devRef .tc main_arg4)))))) (ix2 r k) = M (θ V0) (fun c => (V0 (Proc.devRef .tc main_arg0)) (ix2 r c)) 2 1 k := fun r k => msg_core _ _ _ fc fb r k
  have mcd : ∀ r k, (Host.tanh (addf (addf (Host.dotGeneral dot_S1048576x17_S17x17_S1048576x17_1_0_0_1_n_n none (res_main_v15 V0) (extractStridedSlice S17x17 ![0, 0] (V0 (Proc.devRef .tc main_arg3)) slices_S34x17_S17x17_0_0)) (Host.dotGeneral dot_S1048576x17_S17x17_S1048576x17_1_0_0_1_n_n none (res_main_v17 V0) (extractStridedSlice S17x17 ![17, 0] (V0 (Proc.devRef .tc main_arg3)) slices_S34x17_S17x17_17_0))) (broadcastInDim S1048576x17 ![0, 1] bcast_S1x17_S1048576x17_0_1 (broadcastInDim S1x17 ![1] bcast_S17_S1x17_1 (V0 (Proc.devRef .tc main_arg4)))))) (ix2 r k) = M (θ V0) (fun c => (V0 (Proc.devRef .tc main_arg0)) (ix2 r c)) 2 3 k := fun r k => msg_core _ _ _ fc fd r k
  have mdc : ∀ r k, (Host.tanh (addf (addf (Host.dotGeneral dot_S1048576x17_S17x17_S1048576x17_1_0_0_1_n_n none (res_main_v17 V0) (extractStridedSlice S17x17 ![0, 0] (V0 (Proc.devRef .tc main_arg3)) slices_S34x17_S17x17_0_0)) (Host.dotGeneral dot_S1048576x17_S17x17_S1048576x17_1_0_0_1_n_n none (res_main_v15 V0) (extractStridedSlice S17x17 ![17, 0] (V0 (Proc.devRef .tc main_arg3)) slices_S34x17_S17x17_17_0))) (broadcastInDim S1048576x17 ![0, 1] bcast_S1x17_S1048576x17_0_1 (broadcastInDim S1x17 ![1] bcast_S17_S1x17_1 (V0 (Proc.devRef .tc main_arg4)))))) (ix2 r k) = M (θ V0) (fun c => (V0 (Proc.devRef .tc main_arg0)) (ix2 r c)) 3 2 k := fun r k => msg_core _ _ _ fd fc r k
  have mda : ∀ r k, (Host.tanh (addf (addf (Host.dotGeneral dot_S1048576x17_S17x17_S1048576x17_1_0_0_1_n_n none (res_main_v17 V0) (extractStridedSlice S17x17 ![0, 0] (V0 (Proc.devRef .tc main_arg3)) slices_S34x17_S17x17_0_0)) (Host.dotGeneral dot_S1048576x17_S17x17_S1048576x17_1_0_0_1_n_n none (res_main_v11 V0) (extractStridedSlice S17x17 ![17, 0] (V0 (Proc.devRef .tc main_arg3)) slices_S34x17_S17x17_17_0))) (broadcastInDim S1048576x17 ![0, 1] bcast_S1x17_S1048576x17_0_1 (broadcastInDim S1x17 ![1] bcast_S17_S1x17_1 (V0 (Proc.devRef .tc main_arg4)))))) (ix2 r k) = M (θ V0) (fun c => (V0 (Proc.devRef .tc main_arg0)) (ix2 r c)) 3 0 k := fun r k => msg_core _ _ _ fd fa r k
  have ua : ∀ r k, (Host.tanh (addf (addf (addf (addf (Host.dotGeneral dot_S1048576x17_S17x17_S1048576x17_1_0_0_1_n_n none (Host.tanh (addf (addf (Host.dotGeneral dot_S1048576x17_S17x17_S1048576x17_1_0_0_1_n_n none (res_main_v11 V0) (extractStridedSlice S17x17 ![0, 0] (V0 (Proc.devRef .tc main_arg3)) slices_S34x17_S17x17_0_0)) (Host.dotGeneral dot_S1048576x17_S17x17_S1048576x17_1_0_0_1_n_n none (res_main_v13 V0) (extractStridedSlice S17x17 ![17, 0] (V0 (Proc.devRef .tc main_arg3)) slices_S34x17_S17x17_17_0))) (broadcastInDim S1048576x17 ![0, 1] bcast_S1x17_S1048576x17_0_1 (broadcastInDim S1x17 ![1] bcast_S17_S1x17_1 (V0 (Proc.devRef .tc main_arg4)))))) (extractStridedSlice S17x17 ![0, 0] (V0 (Proc.devRef .tc main_arg5)) slices_S68x17_S17x17_0_0)) (Host.dotGeneral dot_S1048576x17_S17x17_S1048576x17_1_0_0_1_n_n none (Host.tanh (addf (addf (Host.dotGeneral dot_S1048576x17_S17x17_S1048576x17_1_0_0_1_n_n none (res_main_v11 V0) (extractStridedSlice S17x17 ![0, 0] (V0 (Proc.devRef .tc main_arg3)) slices_S34x17_S17x17_0_0)) (Host.dotGeneral dot_S1048576x17_S17x17_S1048576x17_1_0_0_1_n_n none (res_main_v17 V0) (extractStridedSlice S17x17 ![17, 0] (V0 (Proc.devRef .tc main_arg3)) slices_S34x17_S17x17_17_0))) (broadcastInDim S1048576x17 ![0, 1] bcast_S1x17_S1048576x17_0_1 (broadcastInDim S1x17 ![1] bcast_S17_S1x17_1 (V0 (Proc.devRef .tc main_arg4)))))) (extractStridedSlice S17x17 ![17, 0] (V0 (Proc.devRef .tc main_arg5)) slices_S68x17_S17x17_17_0))) (Host.dotGeneral dot_S1048576x17_S17x17_S1048576x17_1_0_0_1_n_n none (res_main_v11 V0) (extractStridedSlice S17x17 ![34, 0] (V0 (Proc.devRef .tc main_arg5)) slices_S68x17_S17x17_34_0))) (Host.dotGeneral dot_S1048576x17_S17x17_S1048576x17_1_0_0_1_n_n none (res_main_v11 V0) (extractStridedSlice S17x17 ![51, 0] (V0 (Proc.devRef .tc main_arg5)) slices_S68x17_S17x17_51_0))) (broadcastInDim S1048576x17 ![0, 1] bcast_S1x17_S1048576x17_0_1 (broadcastInDim S1x17 ![1] bcast_S17_S1x17_1 (V0 (Proc.devRef .tc main_arg6)))))) (ix2 r k) = U (θ V0) (fun c => (V0 (Proc.devRef .tc main_arg0)) (ix2 r c)) 0 1 3 k := fun r k => upd_core _ _ _ _ _ mab mad fa r k
  have ub : ∀ r k, (Host.tanh (addf (addf (addf (addf (Host.dotGeneral dot_S1048576x17_S17x17_S1048576x17_1_0_0_1_n_n none (Host.tanh (addf (addf (Host.dotGeneral dot_S1048576x17_S17x17_S1048576x17_1_0_0_1_n_n none (res_main_v13 V0) (extractStridedSlice S17x17 ![0, 0] (V0 (Proc.devRef .tc main_arg3)) slices_S34x17_S17x17_0_0)) (Host.dotGeneral dot_S1048576x17_S17x17_S1048576x17_1_0_0_1_n_n none (res_main_v11 V0) (extractStridedSlice S17x17 ![17, 0] (V0 (Proc.devRef .tc main_arg3)) slices_S34x17_S17x17_17_0))) (broadcastInDim S1048576x17 ![0, 1] bcast_S1x17_S1048576x17_0_1 (broadcastInDim S1x17 ![1] bcast_S17_S1x17_1 (V0 (Proc.devRef .tc main_arg4)))))) (extractStridedSlice S17x17 ![0, 0] (V0 (Proc.devRef .tc main_arg5)) slices_S68x17_S17x17_0_0)) (Host.dotGeneral dot_S1048576x17_S17x17_S1048576x17_1_0_0_1_n_n none (Host.tanh (addf (addf (Host.dotGeneral dot_S1048576x17_S17x17_S1048576x17_1_0_0_1_n_n none (res_main_v13 V0) (extractStridedSlice S17x17 ![0, 0] (V0 (Proc.devRef .tc main_arg3)) slices_S34x17_S17x17_0_0)) (Host.dotGeneral dot_S1048576x17_S17x17_S1048576x17_1_0_0_1_n_n none (res_main_v15 V0) (extractStridedSlice S17x17 ![17, 0] (V0 (Proc.devRef .tc main_arg3)) slices_S34x17_S17x17_17_0))) (broadcastInDim S1048576x17 ![0, 1] bcast_S1x17_S1048576x17_0_1 (broadcastInDim S1x17 ![1] bcast_S17_S1x17_1 (V0 (Proc.devRef .tc main_arg4)))))) (extractStridedSlice S17x17 ![17, 0] (V0 (Proc.devRef .tc main_arg5)) slices_S68x17_S17x17_17_0))) (Host.dotGeneral dot_S1048576x17_S17x17_S1048576x17_1_0_0_1_n_n none (res_main_v13 V0) (extractStridedSlice S17x17 ![34, 0] (V0 (Proc.devRef .tc main_arg5)) slices_S68x17_S17x17_34_0))) (Host.dotGeneral dot_S1048576x17_S17x17_S1048576x17_1_0_0_1_n_n none (res_main_v13 V0) (extractStridedSlice S17x17 ![51, 0] (V0 (Proc.devRef .tc main_arg5)) slices_S68x17_S17x17_51_0))) (broadcastInDim S1048576x17 ![0, 1] bcast_S1x17_S1048576x17_0_1 (broadcastInDim S1x17 ![1] bcast_S17_S1x17_1 (V0 (Proc.devRef .tc main_arg6)))))) (ix2 r k) = U (θ V0) (fun c => (V0 (Proc.devRef .tc main_arg0)) (ix2 r c)) 1 0 2 k := fun r k => upd_core _ _ _ _ _ mba mbc fb r k
  have uc : ∀ r k, (Host.tanh (addf (addf (addf (addf (Host.dotGeneral dot_S1048576x17_S17x17_S1048576x17_1_0_0_1_n_n none (Host.tanh (addf (addf (Host.dotGeneral dot_S1048576x17_S17x17_S1048576x17_1_0_0_1_n_n none (res_main_v15 V0) (extractStridedSlice S17x17 ![0, 0] (V0 (Proc.devRef .tc main_arg3)) slices_S34x17_S17x17_0_0)) (Host.dotGeneral dot_S1048576x17_S17x17_S1048576x17_1_0_0_1_n_n none (res_main_v13 V0) (extractStridedSlice S17x17 ![17, 0] (V0 (Proc.devRef .tc main_arg3)) slices_S34x17_S17x17_17_0))) (broadcastInDim S1048576x17 ![0, 1] bcast_S1x17_S1048576x17_0_1 (broadcastInDim S1x17 ![1] bcast_S17_S1x17_1 (V0 (Proc.devRef .tc main_arg4)))))) (extractStridedSlice S17x17 ![0, 0] (V0 (Proc.devRef .tc main_arg5)) slices_S68x17_S17x17_0_0)) (Host.dotGeneral dot_S1048576x17_S17x17_S1048576x17_1_0_0_1_n_n none (Host.tanh (addf (addf (Host.dotGeneral dot_S1048576x17_S17x17_S1048576x17_1_0_0_1_n_n none (res_main_v15 V0) (extractStridedSlice S17x17 ![0, 0] (V0 (Proc.devRef .tc main_arg3)) slices_S34x17_S17x17_0_0)) (Host.dotGeneral dot_S1048576x17_S17x17_S1048576x17_1_0_0_1_n_n none (res_main_v17 V0) (extractStridedSlice S17x17 ![17, 0] (V0 (Proc.devRef .tc main_arg3)) slices_S34x17_S17x17_17_0))) (broadcastInDim S1048576x17 ![0, 1] bcast_S1x17_S1048576x17_0_1 (broadcastInDim S1x17 ![1] bcast_S17_S1x17_1 (V0 (Proc.devRef .tc main_arg4)))))) (extractStridedSlice S17x17 ![17, 0] (V0 (Proc.devRef .tc main_arg5)) slices_S68x17_S17x17_17_0))) (Host.dotGeneral dot_S1048576x17_S17x17_S1048576x17_1_0_0_1_n_n none (res_main_v15 V0) (extractStridedSlice S17x17 ![34, 0] (V0 (Proc.devRef .tc main_arg5)) slices_S68x17_S17x17_34_0))) (Host.dotGeneral dot_S1048576x17_S17x17_S1048576x17_1_0_0_1_n_n none (res_main_v15 V0) (extractStridedSlice S17x17 ![51, 0] (V0 (Proc.devRef .tc main_arg5)) slices_S68x17_S17x17_51_0))) (broadcastInDim S1048576x17 ![0, 1] bcast_S1x17_S1048576x17_0_1 (broadcastInDim S1x17 ![1] bcast_S17_S1x17_1 (V0 (Proc.devRef .tc main_arg6)))))) (ix2 r k) = U (θ V0) (fun c => (V0 (Proc.devRef .tc main_arg0)) (ix2 r c)) 2 1 3 k := fun r k => upd_core _ _ _ _ _ mcb mcd fc r k
  have ud : ∀ r k, (Host.tanh (addf (addf (addf (addf (Host.dotGeneral dot_S1048576x17_S17x17_S1048576x17_1_0_0_1_n_n none (Host.tanh (addf (addf (Host.dotGeneral dot_S1048576x17_S17x17_S1048576x17_1_0_0_1_n_n none (res_main_v17 V0) (extractStridedSlice S17x17 ![0, 0] (V0 (Proc.devRef .tc main_arg3)) slices_S34x17_S17x17_0_0)) (Host.dotGeneral dot_S1048576x17_S17x17_S1048576x17_1_0_0_1_n_n none (res_main_v15 V0) (extractStridedSlice S17x17 ![17, 0] (V0 (Proc.devRef .tc main_arg3)) slices_S34x17_S17x17_17_0))) (broadcastInDim S1048576x17 ![0, 1] bcast_S1x17_S1048576x17_0_1 (broadcastInDim S1x17 ![1] bcast_S17_S1x17_1 (V0 (Proc.devRef .tc main_arg4)))))) (extractStridedSlice S17x17 ![0, 0] (V0 (Proc.devRef .tc main_arg5)) slices_S68x17_S17x17_0_0)) (Host.dotGeneral dot_S1048576x17_S17x17_S1048576x17_1_0_0_1_n_n none (Host.tanh (addf (addf (Host.dotGeneral dot_S1048576x17_S17x17_S1048576x17_1_0_0_1_n_n none (res_main_v17 V0) (extractStridedSlice S17x17 ![0, 0] (V0 (Proc.devRef .tc main_arg3)) slices_S34x17_S17x17_0_0)) (Host.dotGeneral dot_S1048576x17_S17x17_S1048576x17_1_0_0_1_n_n none (res_main_v11 V0) (extractStridedSlice S17x17 ![17, 0] (V0 (Proc.devRef .tc main_arg3)) slices_S34x17_S17x17_17_0))) (broadcastInDim S1048576x17 ![0, 1] bcast_S1x17_S1048576x17_0_1 (broadcastInDim S1x17 ![1] bcast_S17_S1x17_1 (V0 (Proc.devRef .tc main_arg4)))))) (extractStridedSlice S17x17 ![17, 0] (V0 (Proc.devRef .tc main_arg5)) slices_S68x17_S17x17_17_0))) (Host.dotGeneral dot_S1048576x17_S17x17_S1048576x17_1_0_0_1_n_n none (res_main_v17 V0) (extractStridedSlice S17x17 ![34, 0] (V0 (Proc.devRef .tc main_arg5)) slices_S68x17_S17x17_34_0))) (Host.dotGeneral dot_S1048576x17_S17x17_S1048576x17_1_0_0_1_n_n none (res_main_v17 V0) (extractStridedSlice S17x17 ![51, 0] (V0 (Proc.devRef .tc main_arg5)) slices_S68x17_S17x17_51_0))) (broadcastInDim S1048576x17 ![0, 1] bcast_S1x17_S1048576x17_0_1 (broadcastInDim S1x17 ![1] bcast_S17_S1x17_1 (V0 (Proc.devRef .tc main_arg6)))))) (ix2 r k) = U (θ V0) (fun c => (V0 (Proc.devRef .tc main_arg0)) (ix2 r c)) 3 2 0 k := fun r k => upd_core _ _ _ _ _ mdc mda fd r k
  have ue : ∀ r k, (Host.tanh (addf (addf (addf (addf (Host.dotGeneral dot_S1048576x17_S17x17_S1048576x17_1_0_0_1_n_n none (res_main_v92 V0) (extractStridedSlice S17x17 ![0, 0] (V0 (Proc.devRef .tc main_arg5)) slices_S68x17_S17x17_0_0)) (Host.dotGeneral dot_S1048576x17_S17x17_S1048576x17_1_0_0_1_n_n none (res_main_v92 V0) (extractStridedSlice S17x17 ![17, 0] (V0 (Proc.devRef .tc main_arg5)) slices_S68x17_S17x17_17_0))) (Host.dotGeneral dot_S1048576x17_S17x17_S1048576x17_1_0_0_1_n_n none (res_main_v19 V0) (extractStridedSlice S17x17 ![34, 0] (V0 (Proc.devRef .tc main_arg5)) slices_S68x17_S17x17_34_0))) (Host.dotGeneral dot_S1048576x17_S17x17_S1048576x17_1_0_0_1_n_n none (res_main_v19 V0) (extractStridedSlice S17x17 ![51, 0] (V0 (Proc.devRef .tc main_arg5)) slices_S68x17_S17x17_51_0))) (broadcastInDim S1048576x17 ![0, 1] bcast_S1x17_S1048576x17_0_1 (broadcastInDim S1x17 ![1] bcast_S17_S1x17_1 (V0 (Proc.devRef .tc main_arg6)))))) (ix2 r k) = Ue (θ V0) (fun c => (V0 (Proc.devRef .tc main_arg0)) (ix2 r c)) k :=
    fun r k => (upd_core _ _ _ _ _ hz hz fe r k).trans (congrFun (upd_zero _ _ _ _ _ _) k)
  exact out_core _ _ _ _ _ _ ua ub uc ud ue r u

/-- The whole result array is `G` of the argument arrays. -/
theorem result_eq :
    val4 V0 (no_index (Proc.devRef .tc main_v184))
      = G (V0 (Proc.devRef .tc main_arg0)) (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) := by
  funext i
  obtain ⟨r, u, rfl⟩ : ∃ (r : Fin 1048576) (u : Fin 1), i = ix2 r u := ⟨i 0, i 1, eq_ix2 i⟩
  rw [result_rows V0 r u]
  unfold G θ
  rw [paramsOfPieces_slices]

end Cert.ReferenceIdeal.Batch

end
-- ==== Proof.lean ====
/-
  A message-passing network on rows of five scalars: the kernel against its array-level reference.

  Both programs compute, for every row of the [1048576, 5] input, the same function over the extended reals:
  five features fᵢ = tanh (xᵢ · wf + bf); eight messages around the cycle a–b–c–d, each tanh (p · Wm₁ + q · Wm₂ + bm);
  five updates tanh (m₁ · Wu₁ + m₂ · Wu₂ + f · Wu₃ + f · Wu₄ + bu), the fifth with both messages absent; and the
  readout ∑ᵢ Uᵢ · Wrᵢ + br (Proof/NetSpec.lean). The kernel works on 128 blocks of 8192 rows, converts the operands of
  every product to bf16 and accumulates from zero, and leaves the two absent products of the fifth update out; the
  reference works on the whole batch, keeps all five features in one [B, 5, 17] tensor, and multiplies the zero block
  by Wu₁ and Wu₂ for the fifth update. Over the extended reals a change of format is the identity, a product
  accumulated from zero is the plain sum of products, and a zero row times a block is the zero row, so the two are
  one function of the arguments, entry by entry, with no appeal to finiteness of the inputs.

  The kernel's result array is that function by Proof/BlockLayers.lean (each layer of the body, row by row),
  Proof/BlockValue.lean (the stored block) and Proof/KernelArray.lean (the blocks tile the array); the reference's by
  Proof/HostLayers.lean and Proof/HostValue.lean. The two word-level and idealized kernel frames are the generated
  frame certificates; the reference's frame is its run with the result forgotten; the idealized kernel is the
  kernel's own text read over the extended reals, so there is nothing to preserve.
-/
import proofs.«121907_j79104707658373_1_alg».proof.Defs
import proofs.«121907_j79104707658373_1_alg».proof.Proof.Gen.Kernel
import proofs.«121907_j79104707658373_1_alg».proof.Proof.Gen.Kernel.Skeleton
import proofs.«121907_j79104707658373_1_alg».proof.Proof.Gen.Kernel.Launch
import proofs.«121907_j79104707658373_1_alg».proof.Proof.Gen.Kernel.Points
import proofs.«121907_j79104707658373_1_alg».proof.Proof.Gen.Kernel.Frame
import proofs.«121907_j79104707658373_1_alg».proof.Proof.Gen.KernelIdeal
import proofs.«121907_j79104707658373_1_alg».proof.Proof.Gen.KernelIdeal.Skeleton
import proofs.«121907_j79104707658373_1_alg».proof.Proof.Gen.KernelIdeal.Launch
import proofs.«121907_j79104707658373_1_alg».proof.Proof.Gen.KernelIdeal.Points
import proofs.«121907_j79104707658373_1_alg».proof.Proof.Gen.KernelIdeal.Frame
import proofs.«121907_j79104707658373_1_alg».proof.Proof.Gen.ReferenceIdeal
import proofs.«121907_j79104707658373_1_alg».proof.Proof.Gen.KernelIdeal.Value
import proofs.«121907_j79104707658373_1_alg».proof.Proof.Gen.ReferenceIdeal.Run
import proofs.«121907_j79104707658373_1_alg».proof.Proof.Gen.Pre_finite_inputs
import proofs.«121907_j79104707658373_1_alg».proof.Proof.KernelArray
import proofs.«121907_j79104707658373_1_alg».proof.Proof.HostValue
import Idealize.ShloMosaic.Adequacy
import Idealize.ShloMosaic.Init

set_option maxRecDepth 16384

noncomputable section

namespace Cert.Proof

open Idealize.ShloMosaic Idealize.SL.Sem Idealize.ShloMosaic.StableHlo

/-- The kernel as printed terminates without fault and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of array operations: its run, with the result's value forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text; no operation was rewritten. -/
theorem preserves : Cert.preserves_Kernel_KernelIdeal := trivial

/-- From arguments that agree, both runs end with the result array at the network applied to every row. -/
theorem algebraic : Cert.algebraic_KernelIdeal_ReferenceIdeal := by
  intro m ρ m' ρ' _ hagree
  refine ⟨fun c => (Cert.Net.G (m ((c.tc : Thread Cert.KernelIdeal.nD Cert.KernelIdeal.τ).loc Cert.KernelIdeal.main_arg0)) (Cert.Net.paramsOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Value.val4_main_v184 (launchContents m' c)).symm.trans
    (Cert.ReferenceIdeal.Batch.result_eq (launchContents m' c))).trans ?_
  obtain ⟨h0, h1, h2, h3, h4, h5, h6, h7, h8⟩ := hagree c
  show (Cert.Net.G (m' ((c.tc : Thread Cert.ReferenceIdeal.nD Cert.ReferenceIdeal.τ).loc Cert.ReferenceIdeal.main_arg0)) (Cert.Net.paramsOf (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) = _
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
